-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S1x2048 : Shape := ⟨2, ![1, 2048]⟩
abbrev S1024x256 : Shape := ⟨2, ![1024, 256]⟩
abbrev S512x256 : Shape := ⟨2, ![512, 256]⟩
abbrev S1x512 : Shape := ⟨2, ![1, 512]⟩
abbrev S1024x512 : Shape := ⟨2, ![1024, 512]⟩

abbrev nBuf : Space → Nat
  | .hbm => 18
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v38 : BitVec 1 := Scalar.cmpi .eq arg2 c15_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  concatenates_S8192x2048_S8192x2048_S8192x4096_d1 : Shape.Concatenates [S8192x2048, S8192x2048] S8192x4096 1
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x4096.size a
  hwx0_1 : ∀ i : grid0.Coords, EltTy.bits .f32 = 32 ∨ (Rect.block (s := S2048x4096) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x4096.size a
  hwx0_2 : ∀ i : grid0.Coords, EltTy.bits .f32 = 32 ∨ (Rect.block (s := S2048x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x4096.size a
  hwx0_3 : ∀ i : grid0.Coords, EltTy.bits .f32 = 32 ∨ (Rect.block (s := S2048x4096) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x4096.size a
  hwx0_4 : ∀ i : grid0.Coords, EltTy.bits .f32 = 32 ∨ (Rect.block (s := S2048x4096) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x2048.size a
  hwx0_9 : ∀ i : grid0.Coords, EltTy.bits .f32 = 32 ∨ (Rect.block (s := S8192x2048) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S8192x2048.size a
  hwx0_10 : ∀ i : grid0.Coords, EltTy.bits .f32 = 32 ∨ (Rect.block (s := S8192x2048) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S8192x2048.size a
  hwx0_11 : ∀ i : grid0.Coords, EltTy.bits .f32 = 32 ∨ (Rect.block (s := S8192x2048) S1024x512.size (cc0_transform_11 i) (hinb0_11 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.KernelPieces.lean ====
/-
  What one grid point leaves in the four gate accumulators and, at the last step of the contraction, in the two
  result blocks — each as ONE payload of the point's input blocks and of what the point before left.

  A point (m, h, k) of the 8 × 4 × 16 grid works on batch rows [1024m, 1024m + 1024), hidden units
  [512h, 512h + 512) and contraction columns [256k, 256k + 256). Three cases by k:
    k = 0        every accumulator is zeroed and then takes this step's product, acc = 0 + x_k · W_kᵀ;
    0 < k < 15   acc = acc' + x_k · W_kᵀ over what the step before left;
    k = 15       the same update, after which both result blocks are stored from the UPDATED accumulators,
                 the biases' blocks and the old cell state's block.
  The frame names what each case leaves as "its stores read back"; here each is opened to the payload it is:
  the one covering store's value, every load replaced by what it reads — an input block, what the step before
  left, or (for k = 0 and for the results) the value just stored. The statements hold at any float instance.
-/
import proofs.«127460_j81930796139238_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a whole-buffer access, as a function. -/
theorem hz : (![0, 0] : Fin 2 → Nat) = fun _ => 0 := by
  funext a; match a with | ⟨0, _⟩ => rfl | ⟨1, _⟩ => rfl

/-- A load of a whole rank-2 buffer that holds `x` reads `x`. -/
theorem load_whole {sz : Fin 2 → Nat} (a : Memref sig .tc .vmem ⟨2, sz⟩ .f32) (ha : a.IsWhole) (x : Vec F ⟨2, sz⟩ .f32)
    (inb : ∀ d, (![0, 0] : Fin 2 → Nat) d + sz d ≤ sz d) :
    View.readAt (Elt F) a.view (Rect.unit (s := ⟨2, sz⟩) ![0, 0] sz inb).toLoadRect (ha.unread x) = x := by
  rw [View.readAt_eq_ld, ha.read_unread, View.ld_unit_zero (S := ⟨2, sz⟩) hz]

/-- A load of a whole rank-2 buffer right after one store that covered it reads what was stored. -/
theorem load_after_store {sz : Fin 2 → Nat} (a : Memref sig .tc .vmem ⟨2, sz⟩ .f32) (w : Vec F ⟨2, sz⟩ .f32)
    (inb inb' : ∀ d, (![0, 0] : Fin 2 → Nat) d + sz d ≤ sz d) :
    a.view.readCov [(⟨Rect.unit (s := ⟨2, sz⟩) ![0, 0] sz inb, w⟩ : View.Piece (Elt F) ⟨2, sz⟩ .f32)]
      (Rect.unit (s := ⟨2, sz⟩) ![0, 0] sz inb').toLoadRect = w :=
  View.readCov_unit_zero (S := ⟨2, sz⟩) a.view hz inb w

variable (c : Dev nD) (i : grid0.Coords)
  (arg3 : Memref sig .tc .vmem S1024x256 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x512 .f32) (harg12 : arg12.IsWhole)
  (arg13 : Memref sig .tc .vmem S1024x512 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .f32) (harg16 : arg16.IsWhole)
  (arg17 : Memref sig .tc .vmem S1024x512 .f32) (harg17 : arg17.IsWhole)
  (arg18 : Memref sig .tc .vmem S1024x512 .f32) (harg18 : arg18.IsWhole)
  (x0 : Vec F S1024x256 .f32) (x1 x2 x3 x4 : Vec F S512x256 .f32) (x5 x6 x7 x8 : Vec F S1x512 .f32)
  (x9 : Vec F S1024x512 .f32)

/-! ## k = 0: zeroed, then this step's product -/

/-- At k = 0 the forget gate's accumulator ends at this step's product over the zero just stored. -/
theorem first_0 (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
      = k0_pay11 x0 x1 (k0_pay5 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S1024x512) hz]
  simp only [load_whole, load_after_store]

/-- At k = 0 the input gate's accumulator likewise. -/
theorem first_1 (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
      = k0_pay12 x0 x2 (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S1024x512) hz]
  simp only [load_whole, load_after_store]

/-- At k = 0 the candidate's accumulator likewise. -/
theorem first_2 (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
      = k0_pay1 (k0_pay13 x0 x3 (k0_pay7 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S1024x512) hz]
  simp only [load_whole, load_after_store]

/-- At k = 0 the output gate's accumulator likewise. -/
theorem first_3 (hc0 : cond0_0 i) (hc1 : ¬cond0_1 i) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9
      = k0_pay2 (k0_pay9 x0) (k0_pay10 x4) (k0_pay8 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S1024x512) hz]
  simp only [load_whole, load_after_store]

/-! ## 0 < k < 15: this step's product over what the step before left -/

/-- In the middle of the contraction the forget gate's accumulator ends at what it held plus this step's product. -/
theorem middle_0 (hc0 : ¬cond0_0 i) (hc1 : ¬cond0_1 i) (xs0 xs1 xs2 xs3 : Vec F S1024x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay11 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [load_whole]

/-- In the middle the input gate's accumulator likewise. -/
theorem middle_1 (hc0 : ¬cond0_0 i) (hc1 : ¬cond0_1 i) (xs0 xs1 xs2 xs3 : Vec F S1024x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay12 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [load_whole]

/-- In the middle the candidate's accumulator likewise. -/
theorem middle_2 (hc0 : ¬cond0_0 i) (hc1 : ¬cond0_1 i) (xs0 xs1 xs2 xs3 : Vec F S1024x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay1 (k0_pay13 x0 x3 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [load_whole]

/-- In the middle the output gate's accumulator likewise. -/
theorem middle_3 (hc0 : ¬cond0_0 i) (hc1 : ¬cond0_1 i) (xs0 xs1 xs2 xs3 : Vec F S1024x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay2 (k0_pay9 x0) (k0_pay10 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [load_whole]

/-! ## k = 15: the last update, and the two results -/

/-- At the last step the forget gate's accumulator takes the same update. -/
theorem last_0 (hc0 : ¬cond0_0 i) (hc1 : cond0_1 i) (xs0 xs1 xs2 xs3 : Vec F S1024x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay11 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole]

/-- At the last step the input gate's accumulator likewise. -/
theorem last_1 (hc0 : ¬cond0_0 i) (hc1 : cond0_1 i) (xs0 xs1 xs2 xs3 : Vec F S1024x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay12 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole]

/-- At the last step the candidate's accumulator likewise. -/
theorem last_2 (hc0 : ¬cond0_0 i) (hc1 : cond0_1 i) (xs0 xs1 xs2 xs3 : Vec F S1024x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay1 (k0_pay13 x0 x3 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole]

/-- At the last step the output gate's accumulator likewise. -/
theorem last_3 (hc0 : ¬cond0_0 i) (hc1 : cond0_1 i) (xs0 xs1 xs2 xs3 : Vec F S1024x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay2 (k0_pay9 x0) (k0_pay10 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole]

/-- At the last step the new cell state's block is the gate payload of the UPDATED forget, input and candidate
    accumulators, those gates' bias blocks and the old cell state's block. -/
theorem last_cell (hc0 : ¬cond0_0 i) (hc1 : cond0_1 i) (xs0 xs1 xs2 xs3 : Vec F S1024x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay3 (k0_pay11 x0 x1 xs0) x5 (k0_pay12 x0 x2 xs1) x6 (k0_pay1 (k0_pay13 x0 x3 xs2)) x7 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole, load_after_store]

/-- At the last step the new hidden state's block likewise, with the output gate's updated accumulator and bias too. -/
theorem last_hidden (hc0 : ¬cond0_0 i) (hc1 : cond0_1 i) (xs0 xs1 xs2 xs3 : Vec F S1024x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3
      = k0_pay4 (k0_pay11 x0 x1 xs0) x5 (k0_pay12 x0 x2 xs1) x6 (k0_pay1 (k0_pay13 x0 x3 xs2)) x7
          (k0_pay2 (k0_pay9 x0) (k0_pay10 x4) xs3) x8 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [load_whole, load_after_store]

end Cert.KernelIdeal.Pieces

end
-- ==== Proof.LibRowRowDot.lean ====
/-
  A matrix product that contracts axis 1 of BOTH operands, read at an index.

  For `a : [n, k]` and `w : [m, k]` the product `a · wᵀ : [n, m]` at `(p, q)` is row `p` of `a` against row `q`
  of `w`: `∑ κ < k, a (p, κ) · w (q, κ)` — the form a weight stored (out_features, in_features) is multiplied
  in, with no transpose materialised. The dimension numbers enter only through one rank fact, one size fact and
  four axis facts, so the lemma is generic in the three sizes and serves any record that proves them. On the
  extended reals a change of float format is the identity, so the operands' formats are free.
-/
import Idealize.ShloMosaic.PureOps.Ideal
import Idealize.ShloMosaic.PureOps.Ideal.Laws
import Idealize.ShloMosaic.Lib.ValueIdx

noncomputable section

open scoped BigOperators

namespace Idealize.ShloMosaic.RowRowDot

open Idealize.ShloMosaic Idealize.ShloMosaic.ValueIdx

/-- An `[n, m]` matrix of extended reals, by index. -/
abbrev Mat (n m : Nat) : Type := (⟨2, ![n, m]⟩ : Shape).Idx → EReal

/-- Row `p` of `a` against row `q` of `w`. -/
def rowRow {n k m : Nat} (a : Mat n k) (w : Mat m k) (p : Fin n) (q : Fin m) : EReal :=
  ∑ κ : Fin k, a (ix2 p κ) * w (ix2 q κ)

/-- Dimension numbers of an `[n × k] · [m × k]ᵀ` product: one contracted axis of extent `k`, the left operand
    read at (row, κ), the right at (column, κ). -/
structure Dims {n k m : Nat} (d : DotDims ⟨2, ![n, k]⟩ ⟨2, ![m, k]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx), (d.rhsIdx i q 0).val = (i 1).val
  r1 : ∀ (i : (⟨2, ![n, m]⟩ : Shape).Idx) (q : d.contr.Idx) (h : 0 < d.contr.rank), (d.rhsIdx i q 1).val = (q ⟨0, h⟩).val

section
variable {n k m : Nat} {d : DotDims ⟨2, ![n, k]⟩ ⟨2, ![m, k]⟩ ⟨2, ![n, m]⟩}

/-- The contracted sum, re-indexed by the contracted axis's one coordinate. -/
theorem Dims.sum_eq (hd : Dims d) (a : Mat n k) (w : Mat m k) (j : (⟨2, ![n, m]⟩ : Shape).Idx) :
    ∑ q : d.contr.Idx, a (d.lhsIdx j q) * w (d.rhsIdx j q) = rowRow a w (j 0) (j 1) := by
  have h0 : 0 < d.contr.rank := by rw [hd.rank]; exact Nat.one_pos
  unfold rowRow
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 (j 1) κ := funext fun a => Fin.ext (by
    match a with
    | ⟨0, _⟩ => exact hd.r0 _ _
    | ⟨1, _⟩ => exact (hd.r1 _ _ h0).trans hk)
  rw [el, er] <;> rfl

/-- The matrix unit's product into a zero accumulator, at an index: row against row. -/
theorem matmul_zero_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    FloatOps.matmul d prec a w (constant ⟨2, ![n, m]⟩ .f32 0x00000000#32) j = rowRow (fun i => a i) (fun i => w i) (j 0) (j 1) := by
  rw [Ideal.matmul_constant_zero_apply]
  exact hd.sum_eq (fun i => a i) (fun i => w i) j

/-- The host's `dot_general` with the same dimension numbers, at an index: the same sum. -/
theorem dotGeneral_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    Host.dotGeneral d prec a w j = rowRow (fun i => a i) (fun i => w i) (j 0) (j 1) := by
  simp only [Host.dotGeneral]
  rw [Ideal.dotGeneral_apply]
  exact hd.sum_eq (fun i => a i) (fun i => w i) j

end

end Idealize.ShloMosaic.RowRowDot

end
-- ==== Proof.PayloadAt.lean ====
/-
  The body's arithmetic at one element, on the extended reals.

  Each accumulator step adds to what the accumulator held, at (p, q), row `p` of the point's [1024, 256] block of
  `(x | h_prev)` against row `q` of the point's [512, 256] block of the gate's weight — the matrix unit's product
  into a zero accumulator read as a plain sum, the casts to the narrow format being the identity here. The zero
  the accumulators are reset to is the real zero. At the last step the gates are applied element by element:
  each pre-activation is an accumulator entry plus the bias row's entry in the same column, and
  `c' = σ(f)·c + σ(i)·tanh(g)`, `h' = σ(o)·tanh(c')`.
-/
import proofs.«127460_j81930796139238_1_alg».proof.Proof.Gen.KernelIdeal.Skeleton
import proofs.«127460_j81930796139238_1_alg».proof.Proof.LibRowRowDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen
open Idealize.ShloMosaic Idealize.ShloMosaic.ValueIdx Idealize.ShloMosaic.RowRowDot

/-! ## The matrix unit's dimension numbers: [1024, 256] · [512, 256]ᵀ -/

theorem lhs_axis0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl

theorem lhs_axis1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q

theorem rhs_axis0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl

theorem rhs_axis1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- The record contracts axis 1 of both operands, over 256 columns. -/
theorem dims : RowRowDot.Dims dot_S1024x256_S512x256_S1024x512_1_1_0_0_n_n where
  rank := rfl
  size := fun _ => rfl
  l0 := lhs_axis0
  l1 := fun i q _ => lhs_axis1 i q
  r0 := rhs_axis0
  r1 := fun i q _ => rhs_axis1 i q

/-- The product of a [1024, 256] block and a [512, 256] block into the zero accumulator, at (p, q). -/
theorem product_at (l : FVec Ideal S1024x256 .bf16) (r : FVec Ideal S512x256 .bf16) (p : Fin 1024) (q : Fin 512) :
    matmul dot_S1024x256_S512x256_S1024x512_1_1_0_0_n_n none l r (constant S1024x512 .f32 0x00000000#32) (ix2 p q)
      = rowRow (fun i => l i) (fun i => r i) p q :=
  RowRowDot.matmul_zero_at dims none l r (ix2 p q)

/-! ## The accumulators -/

/-- The value the accumulators are reset to is zero everywhere. -/
theorem zero_at (p : Fin 1024) (q : Fin 512) :
    (k0_pay5 (F := Ideal)) (ix2 p q) = 0 ∧ (k0_pay6 (F := Ideal)) (ix2 p q) = 0
      ∧ (k0_pay7 (F := Ideal)) (ix2 p q) = 0 ∧ (k0_pay8 (F := Ideal)) (ix2 p q) = 0 := by
  unfold k0_pay5 k0_pay6 k0_pay7 k0_pay8
  simp only [shapeCast_self]
  exact ⟨Ideal.ofBits_zero_f32, Ideal.ofBits_zero_f32, Ideal.ofBits_zero_f32, Ideal.ofBits_zero_f32⟩

/-- The forget gate's step: what the accumulator held plus the blocks' product. -/
theorem step0_at (x0 : Vec Ideal S1024x256 .f32) (w : Vec Ideal S512x256 .f32) (a : Vec Ideal S1024x512 .f32)
    (p : Fin 1024) (q : Fin 512) :
    k0_pay11 (F := Ideal) x0 w a (ix2 p q) = a (ix2 p q) + rowRow (fun i => x0 i) (fun i => w i) p q := by
  unfold k0_pay11 k0_pay9
  simp only [shapeCast_self]
  exact congrArg (a (ix2 p q) + ·) (product_at _ _ p q)

/-- The input gate's step. -/
theorem step1_at (x0 : Vec Ideal S1024x256 .f32) (w : Vec Ideal S512x256 .f32) (a : Vec Ideal S1024x512 .f32)
    (p : Fin 1024) (q : Fin 512) :
    k0_pay12 (F := Ideal) x0 w a (ix2 p q) = a (ix2 p q) + rowRow (fun i => x0 i) (fun i => w i) p q := by
  unfold k0_pay12 k0_pay9
  simp only [shapeCast_self]
  exact congrArg (a (ix2 p q) + ·) (product_at _ _ p q)

/-- The candidate's step. -/
theorem step2_at (x0 : Vec Ideal S1024x256 .f32) (w : Vec Ideal S512x256 .f32) (a : Vec Ideal S1024x512 .f32)
    (p : Fin 1024) (q : Fin 512) :
    k0_pay1 (F := Ideal) (k0_pay13 x0 w a) (ix2 p q) = a (ix2 p q) + rowRow (fun i => x0 i) (fun i => w i) p q := by
  unfold k0_pay1 k0_pay13 k0_pay9
  simp only [shapeCast_self]
  exact congrArg (a (ix2 p q) + ·) (product_at _ _ p q)

/-- The output gate's step. -/
theorem step3_at (x0 : Vec Ideal S1024x256 .f32) (w : Vec Ideal S512x256 .f32) (a : Vec Ideal S1024x512 .f32)
    (p : Fin 1024) (q : Fin 512) :
    k0_pay2 (F := Ideal) (k0_pay9 x0) (k0_pay10 w) a (ix2 p q) = a (ix2 p q) + rowRow (fun i => x0 i) (fun i => w i) p q := by
  unfold k0_pay2 k0_pay9 k0_pay10
  simp only [shapeCast_self]
  exact congrArg (a (ix2 p q) + ·) (product_at _ _ p q)

/-! ## The gates -/

/-- A bias row added to every row of an accumulator, at (p, q): the row's entry in column `q`. -/
theorem bias_row_at (b : Vec Ideal S1x512 .f32) (p : Fin 1024) (q : Fin 512) :
    broadcastTo S1024x512 b broadcasts_S1x512_S1024x512 (ix2 p q) = b (ix2 (0 : Fin 1) q) :=
  broadcastTo_1b_ab_apply b broadcasts_S1x512_S1024x512 p q

/-- The new cell state at (p, q). -/
theorem cell_at (a0 : Vec Ideal S1024x512 .f32) (b0 : Vec Ideal S1x512 .f32) (a1 : Vec Ideal S1024x512 .f32)
    (b1 : Vec Ideal S1x512 .f32) (a2 : Vec Ideal S1024x512 .f32) (b2 : Vec Ideal S1x512 .f32)
    (cp : Vec Ideal S1024x512 .f32) (p : Fin 1024) (q : Fin 512) :
    k0_pay3 (F := Ideal) a0 b0 a1 b1 a2 b2 cp (ix2 p q)
      = Ideal.logistic (a0 (ix2 p q) + b0 (ix2 (0 : Fin 1) q)) * cp (ix2 p q)
        + Ideal.logistic (a1 (ix2 p q) + b1 (ix2 (0 : Fin 1) q)) * Ideal.tanh (a2 (ix2 p q) + b2 (ix2 (0 : Fin 1) q)) := by
  unfold k0_pay3
  simp only [shapeCast_self]
  show Ideal.logistic (a0 (ix2 p q) + broadcastTo S1024x512 b0 broadcasts_S1x512_S1024x512 (ix2 p q)) * cp (ix2 p q)
      + Ideal.logistic (a1 (ix2 p q) + broadcastTo S1024x512 b1 broadcasts_S1x512_S1024x512 (ix2 p q))
        * Ideal.tanh (a2 (ix2 p q) + broadcastTo S1024x512 b2 broadcasts_S1x512_S1024x512 (ix2 p q)) = _
  rw [bias_row_at b0 p q, bias_row_at b1 p q, bias_row_at b2 p q]

/-- The new hidden state at (p, q). -/
theorem hidden_at (a0 : Vec Ideal S1024x512 .f32) (b0 : Vec Ideal S1x512 .f32) (a1 : Vec Ideal S1024x512 .f32)
    (b1 : Vec Ideal S1x512 .f32) (a2 : Vec Ideal S1024x512 .f32) (b2 : Vec Ideal S1x512 .f32)
    (a3 : Vec Ideal S1024x512 .f32) (b3 : Vec Ideal S1x512 .f32)
    (cp : Vec Ideal S1024x512 .f32) (p : Fin 1024) (q : Fin 512) :
    k0_pay4 (F := Ideal) a0 b0 a1 b1 a2 b2 a3 b3 cp (ix2 p q)
      = Ideal.logistic (a3 (ix2 p q) + b3 (ix2 (0 : Fin 1) q))
        * Ideal.tanh (k0_pay3 (F := Ideal) a0 b0 a1 b1 a2 b2 cp (ix2 p q)) := by
  unfold k0_pay4
  simp only [shapeCast_self]
  show Ideal.logistic (a3 (ix2 p q) + broadcastTo S1024x512 b3 broadcasts_S1x512_S1024x512 (ix2 p q))
      * Ideal.tanh (k0_pay3 (F := Ideal) a0 b0 a1 b1 a2 b2 cp (ix2 p q)) = _
  rw [bias_row_at b3 p q]

end Cert.KernelIdeal.PayloadAt

end
-- ==== Proof.LstmSpec.lean ====
/-
  The LSTM cell, index by index, on the extended reals.

  For a batch row `b` and a hidden unit `j` every gate's pre-activation is the row `(x | h_prev)[b, :]` of the
  concatenated input, of length 4096, against row `j` of that gate's weight, plus the gate's bias:
  `pre b j = (∑ k < 4096, (x|h)[b,k] · W[j,k]) + bias[j]`.
  The new cell state is `c' = σ(pre_f)·c + σ(pre_i)·tanh(pre_c)` and the new hidden state `h' = σ(pre_o)·tanh(c')`,
  with `σ s = 1 / (1 + e^(-s))` — at the extended reals one function whether it is spelled as a single logistic
  or as negate, exponential, add and divide (`sigmoid_expanded`, by definition).
  The concatenated row and a weight row are read through a natural column (zero past the end, never
  consulted) so that a sum over the 4096 columns can be taken as 16 tiles of 256.
-/
import Idealize.ShloMosaic.PureOps.Ideal
import Idealize.ShloMosaic.Lib.ValueIdx
import Idealize.ShloMosaic.Lib.IdealHost

noncomputable section

open scoped BigOperators

namespace Cert.LstmSpec

open Idealize.ShloMosaic Idealize.ShloMosaic.ValueIdx

/-- A [8192, 2048] array of extended reals (x, h_prev, c_prev and both results), by index. -/
abbrev Act : Type := (⟨2, ![8192, 2048]⟩ : Shape).Idx → EReal
/-- A gate's [2048, 4096] weight, stored (hidden unit, concatenated column). -/
abbrev Wt : Type := (⟨2, ![2048, 4096]⟩ : Shape).Idx → EReal
/-- A gate's [2048] bias. -/
abbrev Bias : Type := (⟨1, ![2048]⟩ : Shape).Idx → EReal

/-- Column `k` of row `b` of the concatenation `(x | h_prev)`: `x` for the first 2048 columns, `h_prev` for the
    next 2048. -/
def comb (x h : Act) (b : Fin 8192) (k : ℕ) : EReal :=
  if h1 : k < 2048 then x (ix2 b ⟨k, h1⟩)
  else if h2 : k - 2048 < 2048 then h (ix2 b ⟨k - 2048, h2⟩) else 0

/-- Column `k` of row `j` of a gate's weight. -/
def wrow (W : Wt) (j : Fin 2048) (k : ℕ) : EReal :=
  if h : k < 4096 then W (ix2 j ⟨k, h⟩) else 0

/-- The contraction of a gate at `(b, j)`: the concatenated row against the weight's row. -/
def dot (x h : Act) (W : Wt) (b : Fin 8192) (j : Fin 2048) : EReal :=
  ∑ k : Fin 4096, comb x h b k.val * wrow W j k.val

/-- A gate's pre-activation at `(b, j)`. -/
def pre (x h : Act) (W : Wt) (bias : Bias) (b : Fin 8192) (j : Fin 2048) : EReal :=
  dot x h W b j + bias (ix1 j)

/-- The new cell state. -/
def cell (x h c : Act) (Wf Wi Wc : Wt) (bf bi bc : Bias) : Act := fun i =>
  Ideal.logistic (pre x h Wf bf (i 0) (i 1)) * c i
    + Ideal.logistic (pre x h Wi bi (i 0) (i 1)) * Ideal.tanh (pre x h Wc bc (i 0) (i 1))

/-- The new hidden state. -/
def hidden (x h c : Act) (Wf Wi Wc Wo : Wt) (bf bi bc bo : Bias) : Act := fun i =>
  Ideal.logistic (pre x h Wo bo (i 0) (i 1)) * Ideal.tanh (cell x h c Wf Wi Wc bf bi bc i)

/-- The logistic function is its own expansion `1 / (1 + e^(-s))` on every extended real, the infinities
    included: that expansion is how it is defined there. -/
theorem sigmoid_expanded (s : EReal) : Ideal.div 1 (1 + Ideal.exp (-s)) = Ideal.logistic s := rfl

/-- Inside the first half the concatenated row reads `x`. -/
theorem comb_left (x h : Act) (b : Fin 8192) (k : ℕ) (hk : k < 2048) : comb x h b k = x (ix2 b ⟨k, hk⟩) := by
  unfold comb; rw [dif_pos hk]

/-- Inside the second half it reads `h_prev`, 2048 columns back. -/
theorem comb_right (x h : Act) (b : Fin 8192) (k : ℕ) (hk : ¬ k < 2048) (hk' : k - 2048 < 2048) :
    comb x h b k = h (ix2 b ⟨k - 2048, hk'⟩) := by
  unfold comb; rw [dif_neg hk, dif_pos hk']

/-- Inside the weight's 4096 columns a weight row reads the weight. -/
theorem wrow_lt (W : Wt) (j : Fin 2048) (k : ℕ) (hk : k < 4096) : wrow W j k = W (ix2 j ⟨k, hk⟩) := by
  unfold wrow; rw [dif_pos hk]

end Cert.LstmSpec

end
-- ==== Proof.ConcatRows.lean ====
/-
  The three concatenations of the LSTM cell, read at an index.

  `(x | h_prev)` joins two [8192, 2048] arrays along the columns: column `k` of row `b` is `x[b, k]` for
  `k < 2048` and `h_prev[b, k - 2048]` after — the specification's `comb`. The four gates' weights stacked along
  the rows give a [8192, 4096] array whose row `2048·g + j` is row `j` of gate `g`'s weight, and the four biases
  stacked give a [8192] vector whose entry `2048·g + j` is entry `j` of gate `g`'s bias. Both programs
  concatenate `(x | h_prev)`; only the reference stacks the gates.
-/
import Idealize.ShloMosaic.Lib.Pipeline.Value
import Idealize.ShloMosaic.Lib.ValueIdx
import proofs.«127460_j81930796139238_1_alg».proof.Proof.LstmSpec

noncomputable section

namespace Cert.LstmSpec

open Idealize.ShloMosaic Idealize.ShloMosaic.ValueIdx

/-- [8192, 2048]: an activation. -/
abbrev SAct : Shape := ⟨2, ![8192, 2048]⟩
/-- [8192, 4096]: the concatenated input, and also the four weights stacked. -/
abbrev SCat : Shape := ⟨2, ![8192, 4096]⟩
/-- [2048, 4096]: one gate's weight. -/
abbrev SWt : Shape := ⟨2, ![2048, 4096]⟩
/-- [2048]: one gate's bias. -/
abbrev SBias : Shape := ⟨1, ![2048]⟩
/-- [8192]: the four biases stacked. -/
abbrev SBias4 : Shape := ⟨1, ![8192]⟩

/-- `(x | h_prev)` at row `b`, column `k`. -/
theorem concat_xh_apply (x h : Act) (hc : Shape.Concatenates [SAct, SAct] SCat 1) (b : Fin 8192) (k : Fin 4096) :
    concatenate SCat 1 [⟨SAct, x⟩, ⟨SAct, h⟩] hc (ix2 b k) = comb x h b k.val := by
  by_cases hk : k.val < 2048
  · rw [comb_left x h b k.val hk]
    refine concatenate_pair_apply_left (1 : Fin SCat.rank) x h hc (ix2 b k) rfl (ix2 b ⟨k.val, hk⟩) ?_
    intro a
    match a with
    | ⟨0, _⟩ => rfl
    | ⟨1, _⟩ => rfl
  · have hk' : k.val - 2048 < 2048 := by have := k.isLt; omega
    rw [comb_right x h b k.val hk hk']
    refine concatenate_pair_apply_right (1 : Fin SCat.rank) x h hc (ix2 b k) rfl rfl (ix2 b ⟨k.val - 2048, hk'⟩) ?_ ?_
    · intro a ha
      match a with
      | ⟨0, _⟩ => rfl
      | ⟨1, _⟩ => exact absurd rfl ha
    · show (k.val - 2048) + 2048 = k.val
      omega

/-- The four weights stacked, at row `2048·g + j`: gate `g`'s weight at row `j`. -/
theorem stack_weights_apply (W : Fin 4 → Wt) (hc : Shape.Concatenates [SWt, SWt, SWt, SWt] SCat 0) (g : Fin 4)
    (j : Fin 2048) (k : Fin 4096) (r : Fin 8192) (hr : r.val = 2048 * g.val + j.val) :
    concatenate SCat 0 [⟨SWt, W 0⟩, ⟨SWt, W 1⟩, ⟨SWt, W 2⟩, ⟨SWt, W 3⟩] hc (ix2 r k) = W g (ix2 j k) := by
  have key : ∀ (n : Nat) (hn : n < 4) (pre : Nat), pre = 2048 * n →
      (((([⟨SWt, W 0⟩, ⟨SWt, W 1⟩, ⟨SWt, W 2⟩, ⟨SWt, W 3⟩] : List ((s : Shape) × (s.Idx → EReal))).take n).map (·.1)).map
        fun s => if h : s.rank = SCat.rank then s.size ((0 : Fin SCat.rank).cast h.symm) else 0).sum = pre := by
    intro n hn pre hp
    subst hp
    match n, hn with
    | 0, _ => rfl
    | 1, _ => rfl
    | 2, _ => rfl
    | 3, _ => rfl
  have hx : ([⟨SWt, W 0⟩, ⟨SWt, W 1⟩, ⟨SWt, W 2⟩, ⟨SWt, W 3⟩] : List ((s : Shape) × (s.Idx → EReal)))[g.val]'(by
      have := g.isLt; simp) = ⟨SWt, W g⟩ := by
    match g with
    | ⟨0, _⟩ => rfl
    | ⟨1, _⟩ => rfl
    | ⟨2, _⟩ => rfl
    | ⟨3, _⟩ => rfl
  refine concatenate_apply_piece (0 : Fin SCat.rank) [⟨SWt, W 0⟩, ⟨SWt, W 1⟩, ⟨SWt, W 2⟩, ⟨SWt, W 3⟩] hc (ix2 r k) g.val (by have := g.isLt; simp) SWt (W g) hx rfl
    (2048 * g.val) (key g.val g.isLt _ rfl) (ix2 j k) ?_ ?_
  · intro a ha
    match a with
    | ⟨0, _⟩ => exact absurd rfl ha
    | ⟨1, _⟩ => rfl
  · show 2048 * g.val + j.val = r.val
    omega

/-- The four biases stacked, at entry `2048·g + j`: gate `g`'s bias at `j`. -/
theorem stack_biases_apply (B : Fin 4 → Bias) (hc : Shape.Concatenates [SBias, SBias, SBias, SBias] SBias4 0) (g : Fin 4)
    (j : Fin 2048) (r : Fin 8192) (hr : r.val = 2048 * g.val + j.val) :
    concatenate SBias4 0 [⟨SBias, B 0⟩, ⟨SBias, B 1⟩, ⟨SBias, B 2⟩, ⟨SBias, B 3⟩] hc (ix1 r) = B g (ix1 j) := by
  have key : ∀ (n : Nat) (hn : n < 4) (pre : Nat), pre = 2048 * n →
      (((([⟨SBias, B 0⟩, ⟨SBias, B 1⟩, ⟨SBias, B 2⟩, ⟨SBias, B 3⟩] : List ((s : Shape) × (s.Idx → EReal))).take n).map (·.1)).map
        fun s => if h : s.rank = SBias4.rank then s.size ((0 : Fin SBias4.rank).cast h.symm) else 0).sum = pre := by
    intro n hn pre hp
    subst hp
    match n, hn with
    | 0, _ => rfl
    | 1, _ => rfl
    | 2, _ => rfl
    | 3, _ => rfl
  have hx : ([⟨SBias, B 0⟩, ⟨SBias, B 1⟩, ⟨SBias, B 2⟩, ⟨SBias, B 3⟩] : List ((s : Shape) × (s.Idx → EReal)))[g.val]'(by
      have := g.isLt; simp) = ⟨SBias, B g⟩ := by
    match g with
    | ⟨0, _⟩ => rfl
    | ⟨1, _⟩ => rfl
    | ⟨2, _⟩ => rfl
    | ⟨3, _⟩ => rfl
  refine concatenate_apply_piece (0 : Fin SBias4.rank) [⟨SBias, B 0⟩, ⟨SBias, B 1⟩, ⟨SBias, B 2⟩, ⟨SBias, B 3⟩] hc (ix1 r) g.val (by have := g.isLt; simp) SBias (B g) hx rfl
    (2048 * g.val) (key g.val g.isLt _ rfl) (ix1 j) ?_ ?_
  · intro a ha
    match a with
    | ⟨0, _⟩ => exact absurd rfl ha
  · show 2048 * g.val + j.val = r.val
    omega

end Cert.LstmSpec

end
-- ==== Proof.KernelBlocks.lean ====
/-
  The input blocks of a grid point, element by element, in terms of the argument arrays.

  Point `t` of the 512 points is (m, h, k) = (t / 64, t / 16 % 4, t % 16). Its blocks are
    the [1024, 256] block (m, k) of `(x | h_prev)`:  element (p, κ) is the concatenated row 1024m + p at column 256k + κ;
    the [512, 256] block (h, k) of each gate's weight: element (q, κ) is the weight's row 512h + q at column 256k + κ;
    the [1, 512] block (0, h) of each gate's bias viewed as one row: element (0, q) is the bias at 512h + q;
    the [1024, 512] block (m, h) of the old cell state: element (p, q) is c_prev at (1024m + p, 512h + q).
  The index maps are decided once over the grid; a block's element sits in its array, on each axis, at the block
  index times the block's extent plus the coordinate inside the block.
-/
import proofs.«127460_j81930796139238_1_alg».proof.Proof.Gen.KernelIdeal.Frame
import proofs.«127460_j81930796139238_1_alg».proof.Proof.ConcatRows
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.LstmSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The arguments, as the specification's arrays -/

abbrev X (c : Dev nD) : Act := m ((c : Thread nD τ).loc main_arg0)
abbrev Hp (c : Dev nD) : Act := m ((c : Thread nD τ).loc main_arg1)
abbrev Cp (c : Dev nD) : Act := m ((c : Thread nD τ).loc main_arg2)
abbrev Wf (c : Dev nD) : Wt := m ((c : Thread nD τ).loc main_arg3)
abbrev Bf (c : Dev nD) : Bias := m ((c : Thread nD τ).loc main_arg4)
abbrev Wi (c : Dev nD) : Wt := m ((c : Thread nD τ).loc main_arg5)
abbrev Bi (c : Dev nD) : Bias := m ((c : Thread nD τ).loc main_arg6)
abbrev Wc (c : Dev nD) : Wt := m ((c : Thread nD τ).loc main_arg7)
abbrev Bc (c : Dev nD) : Bias := m ((c : Thread nD τ).loc main_arg8)
abbrev Wo (c : Dev nD) : Wt := m ((c : Thread nD τ).loc main_arg9)
abbrev Bo (c : Dev nD) : Bias := m ((c : Thread nD τ).loc main_arg10)

/-! ## The index maps over the grid -/

theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16
    ∧ win0_3.index t (0 : Fin 2) = t.val / 16 % 4 ∧ win0_3.index t (1 : Fin 2) = t.val % 16
    ∧ win0_4.index t (0 : Fin 2) = t.val / 16 % 4 ∧ win0_4.index t (1 : Fin 2) = t.val % 16
    ∧ win0_5.index t (0 : Fin 2) = 0 ∧ win0_5.index t (1 : Fin 2) = t.val / 16 % 4
    ∧ win0_6.index t (0 : Fin 2) = 0 ∧ win0_6.index t (1 : Fin 2) = t.val / 16 % 4
    ∧ win0_7.index t (0 : Fin 2) = 0 ∧ win0_7.index t (1 : Fin 2) = t.val / 16 % 4
    ∧ win0_8.index t (0 : Fin 2) = 0 ∧ win0_8.index t (1 : Fin 2) = t.val / 16 % 4
    ∧ win0_9.index t (0 : Fin 2) = t.val / 64 ∧ win0_9.index t (1 : Fin 2) = t.val / 16 % 4
    ∧ win0_10.index t (0 : Fin 2) = t.val / 64 ∧ win0_10.index t (1 : Fin 2) = t.val / 16 % 4
    ∧ win0_11.index t (0 : Fin 2) = t.val / 64 ∧ win0_11.index t (1 : Fin 2) = t.val / 16 % 4 :=
  (by decide +kernel : ∀ t : Fin grid0.N, _)

/-- The grid has 512 points. -/
theorem N_eq : cfg0.N = 512 := N_0

/-! ## The host stages before the region -/

/-- The region finds `(x | h_prev)` already concatenated. -/
theorem V_concat (c : Dev nD) :
    (V m c main_v0 : S8192x4096.Idx → EReal)
      = concatenate S8192x4096 1 [⟨S8192x2048, X m c⟩, ⟨S8192x2048, Hp m c⟩] concatenates_S8192x2048_S8192x2048_S8192x4096_d1 := by
  dsimp only [Gen.V, Gen.hostOps0]; after_results

/-- and each bias viewed as one row of 2048. -/
theorem V_bias_f (c : Dev nD) :
    (V m c main_v1 : S1x2048.Idx → EReal) = shapeCast S1x2048 (Bf m c) shapeCasts_S2048_S1x2048 := by
  dsimp only [Gen.V, Gen.hostOps0]; after_results; rfl
theorem V_bias_i (c : Dev nD) :
    (V m c main_v2 : S1x2048.Idx → EReal) = shapeCast S1x2048 (Bi m c) shapeCasts_S2048_S1x2048 := by
  dsimp only [Gen.V, Gen.hostOps0]; after_results; rfl
theorem V_bias_c (c : Dev nD) :
    (V m c main_v3 : S1x2048.Idx → EReal) = shapeCast S1x2048 (Bc m c) shapeCasts_S2048_S1x2048 := by
  dsimp only [Gen.V, Gen.hostOps0]; after_results; rfl
theorem V_bias_o (c : Dev nD) :
    (V m c main_v4 : S1x2048.Idx → EReal) = shapeCast S1x2048 (Bo m c) shapeCasts_S2048_S1x2048 := by
  dsimp only [Gen.V, Gen.hostOps0]; after_results; rfl

/-! ## The blocks -/

/-- The block of `(x | h_prev)` at point `t`, at (p, κ). -/
theorem xblk_at (c : Dev nD) (t : Fin cfg0.N) (p : Fin 1024) (κ : Fin 256)
    (hb : 1024 * (t.val / 64) + p.val < 8192) :
    (iblk m c 0 t : Vec Ideal S1024x256 .f32) (ix2 p κ)
      = comb (X m c) (Hp m c) ⟨1024 * (t.val / 64) + p.val, hb⟩ (256 * (t.val % 16) + κ.val) := by
  obtain ⟨e0, e1, -⟩ := idx_facts t
  have hk : 256 * (t.val % 16) + κ.val < 4096 := by have := κ.isLt; omega
  unfold iblk
  rw [View.read_apply]
  show V m c main_v0 (((cfg0.win 0).blk t).view.emb (ix2 p κ)) = _
  have he : ((cfg0.win 0).blk t).view.emb (ix2 p κ)
      = (ix2 (⟨1024 * (t.val / 64) + p.val, hb⟩ : Fin 8192) (⟨256 * (t.val % 16) + κ.val, hk⟩ : Fin 4096) : S8192x4096.Idx) := by
    funext a; apply Fin.ext
    match a with
    | ⟨0, _⟩ => show win0_0.index t (0 : Fin 2) * 1024 + 1 * p.val = 1024 * (t.val / 64) + p.val; rw [e0]; omega
    | ⟨1, _⟩ => show win0_0.index t (1 : Fin 2) * 256 + 1 * κ.val = 256 * (t.val % 16) + κ.val; rw [e1]; omega
  rw [he, V_concat]
  exact concat_xh_apply (X m c) (Hp m c) _ ⟨1024 * (t.val / 64) + p.val, hb⟩ ⟨256 * (t.val % 16) + κ.val, hk⟩

/-- The block of the forget gate's weight at point `t`, at (q, κ). -/
theorem wblk_f_at (c : Dev nD) (t : Fin cfg0.N) (q : Fin 512) (κ : Fin 256)
    (hb : 512 * (t.val / 16 % 4) + q.val < 2048) :
    (iblk m c 1 t : Vec Ideal S512x256 .f32) (ix2 q κ)
      = wrow (Wf m c) ⟨512 * (t.val / 16 % 4) + q.val, hb⟩ (256 * (t.val % 16) + κ.val) := by
  obtain ⟨-, -, e0, e1, -⟩ := idx_facts t
  have hk : 256 * (t.val % 16) + κ.val < 4096 := by have := κ.isLt; omega
  rw [wrow_lt _ _ _ hk]
  unfold iblk
  rw [View.read_apply]
  show V m c main_arg3 (((cfg0.win 1).blk t).view.emb (ix2 q κ)) = _
  rw [V_main_arg3]
  refine congrArg _ ?_
  funext a; apply Fin.ext
  match a with
  | ⟨0, _⟩ => show win0_1.index t (0 : Fin 2) * 512 + 1 * q.val = 512 * (t.val / 16 % 4) + q.val; rw [e0]; omega
  | ⟨1, _⟩ => show win0_1.index t (1 : Fin 2) * 256 + 1 * κ.val = 256 * (t.val % 16) + κ.val; rw [e1]; omega

/-- The block of the input gate's weight. -/
theorem wblk_i_at (c : Dev nD) (t : Fin cfg0.N) (q : Fin 512) (κ : Fin 256)
    (hb : 512 * (t.val / 16 % 4) + q.val < 2048) :
    (iblk m c 2 t : Vec Ideal S512x256 .f32) (ix2 q κ)
      = wrow (Wi m c) ⟨512 * (t.val / 16 % 4) + q.val, hb⟩ (256 * (t.val % 16) + κ.val) := by
  obtain ⟨-, -, -, -, e0, e1, -⟩ := idx_facts t
  have hk : 256 * (t.val % 16) + κ.val < 4096 := by have := κ.isLt; omega
  rw [wrow_lt _ _ _ hk]
  unfold iblk
  rw [View.read_apply]
  show V m c main_arg5 (((cfg0.win 2).blk t).view.emb (ix2 q κ)) = _
  rw [V_main_arg5]
  refine congrArg _ ?_
  funext a; apply Fin.ext
  match a with
  | ⟨0, _⟩ => show win0_2.index t (0 : Fin 2) * 512 + 1 * q.val = 512 * (t.val / 16 % 4) + q.val; rw [e0]; omega
  | ⟨1, _⟩ => show win0_2.index t (1 : Fin 2) * 256 + 1 * κ.val = 256 * (t.val % 16) + κ.val; rw [e1]; omega

/-- The block of the candidate's weight. -/
theorem wblk_c_at (c : Dev nD) (t : Fin cfg0.N) (q : Fin 512) (κ : Fin 256)
    (hb : 512 * (t.val / 16 % 4) + q.val < 2048) :
    (iblk m c 3 t : Vec Ideal S512x256 .f32) (ix2 q κ)
      = wrow (Wc m c) ⟨512 * (t.val / 16 % 4) + q.val, hb⟩ (256 * (t.val % 16) + κ.val) := by
  obtain ⟨-, -, -, -, -, -, e0, e1, -⟩ := idx_facts t
  have hk : 256 * (t.val % 16) + κ.val < 4096 := by have := κ.isLt; omega
  rw [wrow_lt _ _ _ hk]
  unfold iblk
  rw [View.read_apply]
  show V m c main_arg7 (((cfg0.win 3).blk t).view.emb (ix2 q κ)) = _
  rw [V_main_arg7]
  refine congrArg _ ?_
  funext a; apply Fin.ext
  match a with
  | ⟨0, _⟩ => show win0_3.index t (0 : Fin 2) * 512 + 1 * q.val = 512 * (t.val / 16 % 4) + q.val; rw [e0]; omega
  | ⟨1, _⟩ => show win0_3.index t (1 : Fin 2) * 256 + 1 * κ.val = 256 * (t.val % 16) + κ.val; rw [e1]; omega

/-- The block of the output gate's weight. -/
theorem wblk_o_at (c : Dev nD) (t : Fin cfg0.N) (q : Fin 512) (κ : Fin 256)
    (hb : 512 * (t.val / 16 % 4) + q.val < 2048) :
    (iblk m c 4 t : Vec Ideal S512x256 .f32) (ix2 q κ)
      = wrow (Wo m c) ⟨512 * (t.val / 16 % 4) + q.val, hb⟩ (256 * (t.val % 16) + κ.val) := by
  obtain ⟨-, -, -, -, -, -, -, -, e0, e1, -⟩ := idx_facts t
  have hk : 256 * (t.val % 16) + κ.val < 4096 := by have := κ.isLt; omega
  rw [wrow_lt _ _ _ hk]
  unfold iblk
  rw [View.read_apply]
  show V m c main_arg9 (((cfg0.win 4).blk t).view.emb (ix2 q κ)) = _
  rw [V_main_arg9]
  refine congrArg _ ?_
  funext a; apply Fin.ext
  match a with
  | ⟨0, _⟩ => show win0_4.index t (0 : Fin 2) * 512 + 1 * q.val = 512 * (t.val / 16 % 4) + q.val; rw [e0]; omega
  | ⟨1, _⟩ => show win0_4.index t (1 : Fin 2) * 256 + 1 * κ.val = 256 * (t.val % 16) + κ.val; rw [e1]; omega

/-- A bias viewed as one row, at column `r`, is the bias at `r`. -/
theorem bias_row (b : Bias) (r : Fin 2048) :
    shapeCast S1x2048 b shapeCasts_S2048_S1x2048 (ix2 (0 : Fin 1) r) = b (ix1 r) :=
  shapeCast_a_1a_apply b shapeCasts_S2048_S1x2048 0 r

/-- The block of the forget gate's bias at point `t`, at (0, q). -/
theorem bblk_f_at (c : Dev nD) (t : Fin cfg0.N) (q : Fin 512) (hb : 512 * (t.val / 16 % 4) + q.val < 2048) :
    (iblk m c 5 t : Vec Ideal S1x512 .f32) (ix2 (0 : Fin 1) q) = Bf m c (ix1 ⟨512 * (t.val / 16 % 4) + q.val, hb⟩) := by
  obtain ⟨-, -, -, -, -, -, -, -, -, -, e0, e1, -⟩ := idx_facts t
  unfold iblk
  rw [View.read_apply]
  show V m c main_v1 (((cfg0.win 5).blk t).view.emb (ix2 (0 : Fin 1) q)) = _
  have he : ((cfg0.win 5).blk t).view.emb (ix2 (0 : Fin 1) q)
      = (ix2 (0 : Fin 1) (⟨512 * (t.val / 16 % 4) + q.val, hb⟩ : Fin 2048) : S1x2048.Idx) := by
    funext a; apply Fin.ext
    match a with
    | ⟨0, _⟩ => show win0_5.index t (0 : Fin 2) * 1 + 1 * 0 = 0; rw [e0]
    | ⟨1, _⟩ => show win0_5.index t (1 : Fin 2) * 512 + 1 * q.val = 512 * (t.val / 16 % 4) + q.val; rw [e1]; omega
  rw [he, V_bias_f]
  exact bias_row (Bf m c) _

/-- The block of the input gate's bias. -/
theorem bblk_i_at (c : Dev nD) (t : Fin cfg0.N) (q : Fin 512) (hb : 512 * (t.val / 16 % 4) + q.val < 2048) :
    (iblk m c 6 t : Vec Ideal S1x512 .f32) (ix2 (0 : Fin 1) q) = Bi m c (ix1 ⟨512 * (t.val / 16 % 4) + q.val, hb⟩) := by
  obtain ⟨-, -, -, -, -, -, -, -, -, -, -, -, e0, e1, -⟩ := idx_facts t
  unfold iblk
  rw [View.read_apply]
  show V m c main_v2 (((cfg0.win 6).blk t).view.emb (ix2 (0 : Fin 1) q)) = _
  have he : ((cfg0.win 6).blk t).view.emb (ix2 (0 : Fin 1) q)
      = (ix2 (0 : Fin 1) (⟨512 * (t.val / 16 % 4) + q.val, hb⟩ : Fin 2048) : S1x2048.Idx) := by
    funext a; apply Fin.ext
    match a with
    | ⟨0, _⟩ => show win0_6.index t (0 : Fin 2) * 1 + 1 * 0 = 0; rw [e0]
    | ⟨1, _⟩ => show win0_6.index t (1 : Fin 2) * 512 + 1 * q.val = 512 * (t.val / 16 % 4) + q.val; rw [e1]; omega
  rw [he, V_bias_i]
  exact bias_row (Bi m c) _

/-- The block of the candidate's bias. -/
theorem bblk_c_at (c : Dev nD) (t : Fin cfg0.N) (q : Fin 512) (hb : 512 * (t.val / 16 % 4) + q.val < 2048) :
    (iblk m c 7 t : Vec Ideal S1x512 .f32) (ix2 (0 : Fin 1) q) = Bc m c (ix1 ⟨512 * (t.val / 16 % 4) + q.val, hb⟩) := by
  obtain ⟨-, -, -, -, -, -, -, -, -, -, -, -, -, -, e0, e1, -⟩ := idx_facts t
  unfold iblk
  rw [View.read_apply]
  show V m c main_v3 (((cfg0.win 7).blk t).view.emb (ix2 (0 : Fin 1) q)) = _
  have he : ((cfg0.win 7).blk t).view.emb (ix2 (0 : Fin 1) q)
      = (ix2 (0 : Fin 1) (⟨512 * (t.val / 16 % 4) + q.val, hb⟩ : Fin 2048) : S1x2048.Idx) := by
    funext a; apply Fin.ext
    match a with
    | ⟨0, _⟩ => show win0_7.index t (0 : Fin 2) * 1 + 1 * 0 = 0; rw [e0]
    | ⟨1, _⟩ => show win0_7.index t (1 : Fin 2) * 512 + 1 * q.val = 512 * (t.val / 16 % 4) + q.val; rw [e1]; omega
  rw [he, V_bias_c]
  exact bias_row (Bc m c) _

/-- The block of the output gate's bias. -/
theorem bblk_o_at (c : Dev nD) (t : Fin cfg0.N) (q : Fin 512) (hb : 512 * (t.val / 16 % 4) + q.val < 2048) :
    (iblk m c 8 t : Vec Ideal S1x512 .f32) (ix2 (0 : Fin 1) q) = Bo m c (ix1 ⟨512 * (t.val / 16 % 4) + q.val, hb⟩) := by
  obtain ⟨-, -, -, -, -, -, -, -, -, -, -, -, -, -, -, -, e0, e1, -⟩ := idx_facts t
  unfold iblk
  rw [View.read_apply]
  show V m c main_v4 (((cfg0.win 8).blk t).view.emb (ix2 (0 : Fin 1) q)) = _
  have he : ((cfg0.win 8).blk t).view.emb (ix2 (0 : Fin 1) q)
      = (ix2 (0 : Fin 1) (⟨512 * (t.val / 16 % 4) + q.val, hb⟩ : Fin 2048) : S1x2048.Idx) := by
    funext a; apply Fin.ext
    match a with
    | ⟨0, _⟩ => show win0_8.index t (0 : Fin 2) * 1 + 1 * 0 = 0; rw [e0]
    | ⟨1, _⟩ => show win0_8.index t (1 : Fin 2) * 512 + 1 * q.val = 512 * (t.val / 16 % 4) + q.val; rw [e1]; omega
  rw [he, V_bias_o]
  exact bias_row (Bo m c) _

/-- The block of the old cell state at point `t`, at (p, q). -/
theorem cblk_at (c : Dev nD) (t : Fin cfg0.N) (p : Fin 1024) (q : Fin 512)
    (hp : 1024 * (t.val / 64) + p.val < 8192) (hq : 512 * (t.val / 16 % 4) + q.val < 2048) :
    (iblk m c 9 t : Vec Ideal S1024x512 .f32) (ix2 p q)
      = Cp m c (ix2 ⟨1024 * (t.val / 64) + p.val, hp⟩ ⟨512 * (t.val / 16 % 4) + q.val, hq⟩) := by
  obtain ⟨-, -, -, -, -, -, -, -, -, -, -, -, -, -, -, -, -, -, e0, e1, -⟩ := idx_facts t
  unfold iblk
  rw [View.read_apply]
  show V m c main_arg2 (((cfg0.win 9).blk t).view.emb (ix2 p q)) = _
  rw [V_main_arg2]
  refine congrArg _ ?_
  funext a; apply Fin.ext
  match a with
  | ⟨0, _⟩ => show win0_9.index t (0 : Fin 2) * 1024 + 1 * p.val = 1024 * (t.val / 64) + p.val; rw [e0]; omega
  | ⟨1, _⟩ => show win0_9.index t (1 : Fin 2) * 512 + 1 * q.val = 512 * (t.val / 16 % 4) + q.val; rw [e1]; omega

end Cert.KernelIdeal.Blocks

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.KernelFold.lean ====
/-
  The four gate accumulators after the last step of a contraction: the whole 4096-column contraction.

  Points 16r, 16r + 1, …, 16r + 15 share the batch-row block m = r / 4 and the hidden block h = r % 4 and walk the
  contraction blocks k = 0 … 15. The frame's value leg gives what an accumulator holds after any point as the fold
  of its run from the reset at 16r. Here that fold is unrolled: reset to zero at 16r and "what it held plus the
  point's product" at every point, it ends after point 16r + 15, at (p, q), at the sum over the sixteen points of row
  p of the point's `(x | h_prev)` block against row q of the point's weight block. Point 16r + s contributes
  columns [256s, 256s + 256), so the sixteen tiles are the whole sum over 4096 columns: the gate's contraction at
  (1024m + p, 512h + q). Only associativity and commutativity of + on the extended reals are used.
-/
import proofs.«127460_j81930796139238_1_alg».proof.Proof.Gen.KernelIdeal.Value
import proofs.«127460_j81930796139238_1_alg».proof.Proof.KernelPieces
import proofs.«127460_j81930796139238_1_alg».proof.Proof.PayloadAt
import proofs.«127460_j81930796139238_1_alg».proof.Proof.KernelBlocks
import proofs.«127460_j81930796139238_1_alg».proof.Proof.LibTileSum

set_option maxRecDepth 16384

noncomputable section

namespace Cert.KernelIdeal.Fold

open Cert.KernelIdeal Cert.KernelIdeal.Gen Cert.LstmSpec Cert.KernelIdeal.Blocks
open Idealize.ShloMosaic Idealize.ShloMosaic.TcCoe Idealize.SL.Sem Idealize.ShloMosaic.ValueIdx Idealize.ShloMosaic.RowRowDot
open Finset

/-! ## What a point leaves in each accumulator, as one payload (any float instance) -/

section AnyInstance
variable {F : FTy → Type} [FloatOps F]
variable (m : (ℓ : Loc nD τ sig) → Buf (Elt F) ℓ)

/-- The forget gate's accumulator after point `t`, over what the point before left in it: this point's
    product added to zero at the first step of a contraction, to `acc` otherwise. -/
theorem acc_f_step (c : Dev nD) (t : Fin cfg0.N) (acc : Vec F S1024x512 .f32) :
    Value.scAt0_0 m c t.val t.isLt acc
      = k0_pay11 (iblk m c 0 t) (iblk m c 1 t) (if t.val % 16 = 0 then (k0_pay5 (F := F)) else acc) := by
  unfold Value.scAt0_0
  by_cases h0 : t.val % 16 = 0
  · have h1 : ¬t.val % 16 = 15 := by omega
    rw [dif_pos h0, dif_neg h1, if_pos h0]
    exact Pieces.first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · rw [dif_neg h0, if_neg h0]
    by_cases h1 : t.val % 16 = 15
    · rw [dif_pos h1]
      exact Pieces.last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) acc _ _ _
    · rw [dif_neg h1]
      exact Pieces.middle_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) acc _ _ _

/-- The input gate's accumulator after point `t`. -/
theorem acc_i_step (c : Dev nD) (t : Fin cfg0.N) (acc : Vec F S1024x512 .f32) :
    Value.scAt0_1 m c t.val t.isLt acc
      = k0_pay12 (iblk m c 0 t) (iblk m c 2 t) (if t.val % 16 = 0 then (k0_pay6 (F := F)) else acc) := by
  unfold Value.scAt0_1
  by_cases h0 : t.val % 16 = 0
  · have h1 : ¬t.val % 16 = 15 := by omega
    rw [dif_pos h0, dif_neg h1, if_pos h0]
    exact Pieces.first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · rw [dif_neg h0, if_neg h0]
    by_cases h1 : t.val % 16 = 15
    · rw [dif_pos h1]
      exact Pieces.last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ acc _ _
    · rw [dif_neg h1]
      exact Pieces.middle_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ acc _ _

/-- The candidate's accumulator after point `t`. -/
theorem acc_c_step (c : Dev nD) (t : Fin cfg0.N) (acc : Vec F S1024x512 .f32) :
    Value.scAt0_2 m c t.val t.isLt acc
      = k0_pay1 (k0_pay13 (iblk m c 0 t) (iblk m c 3 t) (if t.val % 16 = 0 then (k0_pay7 (F := F)) else acc)) := by
  unfold Value.scAt0_2
  by_cases h0 : t.val % 16 = 0
  · have h1 : ¬t.val % 16 = 15 := by omega
    rw [dif_pos h0, dif_neg h1, if_pos h0]
    exact Pieces.first_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · rw [dif_neg h0, if_neg h0]
    by_cases h1 : t.val % 16 = 15
    · rw [dif_pos h1]
      exact Pieces.last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ acc _
    · rw [dif_neg h1]
      exact Pieces.middle_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ _ acc _

/-- The output gate's accumulator after point `t`. -/
theorem acc_o_step (c : Dev nD) (t : Fin cfg0.N) (acc : Vec F S1024x512 .f32) :
    Value.scAt0_3 m c t.val t.isLt acc
      = k0_pay2 (k0_pay9 (iblk m c 0 t)) (k0_pay10 (iblk m c 4 t)) (if t.val % 16 = 0 then (k0_pay8 (F := F)) else acc) := by
  unfold Value.scAt0_3
  by_cases h0 : t.val % 16 = 0
  · have h1 : ¬t.val % 16 = 15 := by omega
    rw [dif_pos h0, dif_neg h1, if_pos h0]
    exact Pieces.first_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · rw [dif_neg h0, if_neg h0]
    by_cases h1 : t.val % 16 = 15
    · rw [dif_pos h1]
      exact Pieces.last_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ acc
    · rw [dif_neg h1]
      exact Pieces.middle_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) _ _ _ acc

end AnyInstance

/-! ## On the extended reals -/

/-- A fold's number of steps may be replaced by an equal one. -/
theorem accAt_steps_eq {α : Type} {N : ℕ} (a : (n : ℕ) → n < N → α) (g : (n : ℕ) → n < N → α → α) (b j j' : ℕ)
    (h : b + j < N) (e : j = j') : Pipeline.accAt a g b j h = Pipeline.accAt a g b j' (e ▸ h) := by
  subst e; rfl

/-- RESET, THEN SIXTEEN ADDITIONS. A quantity that at a point divisible by 16 is `0 + M n` and at every other point
    what it was plus `M n` is, after point `16r + 15`, the sum of the sixteen addends. -/
theorem fold16 {ι : Type} {N : ℕ} (sc : (n : ℕ) → n < N → (ι → EReal) → ι → EReal) (junk : ι → EReal)
    (M : ℕ → ι → EReal)
    (hM : ∀ (n : ℕ) (hn : n < N) (acc : ι → EReal) (i : ι), sc n hn acc i = (if n % 16 = 0 then 0 else acc i) + M n i)
    (r : ℕ) (h' : 16 * r + 15 < N) (i : ι) :
    Pipeline.accAt (fun n h => sc n h junk) sc (16 * r) 15 h' i = ∑ s ∈ range 16, M (16 * r + s) i := by
  have key := Pipeline.accAt_add_apply (fun n h => sc n h junk) sc (fun _ => (0 : EReal)) M (16 * r) 15
    (fun h i => by rw [hM, if_pos (Nat.mul_mod_right 16 r)])
    (fun n h acc i hlt hle => by rw [hM, if_neg (by omega)])
    15 le_rfl h' i
  rw [key, zero_add]

/-- Two readings of the concatenated row agree when row and column do. -/
theorem comb_congr (x h : Act) (a a' : ℕ) (ha : a < 8192) (ha' : a' < 8192) (k k' : ℕ) (ea : a = a') (ek : k = k') :
    comb x h ⟨a, ha⟩ k = comb x h ⟨a', ha'⟩ k' := by
  subst ea; subst ek; rfl

/-- Two readings of a weight row agree when row and column do. -/
theorem wrow_congr (W : Wt) (a a' : ℕ) (ha : a < 2048) (ha' : a' < 2048) (k k' : ℕ) (ea : a = a') (ek : k = k') :
    wrow W ⟨a, ha⟩ k = wrow W ⟨a', ha'⟩ k' := by
  subst ea; subst ek; rfl

variable (m : (ℓ : Loc nD τ sig) → Buf (Elt Ideal) ℓ)

/-- ONE GATE'S CONTRACTION. An accumulator that steps as above with the point's `(x | h_prev)` block against a weight
    block `wb t` holding rows [512h, 512h + 512) and columns [256k, 256k + 256) of `W` ends, after the last step of the
    contraction, at `W`'s whole contraction with the concatenated row. -/
theorem gate_total (c : Dev nD)
    (sc : (n : ℕ) → n < cfg0.N → (S1024x512.Idx → EReal) → S1024x512.Idx → EReal)
    (wb : Fin cfg0.N → Vec Ideal S512x256 .f32) (W : Wt)
    (hsc : ∀ (t : Fin cfg0.N) (acc : S1024x512.Idx → EReal) (p : Fin 1024) (q : Fin 512),
      sc t.val t.isLt acc (ix2 p q) = (if t.val % 16 = 0 then 0 else acc (ix2 p q))
        + rowRow (fun y => (iblk m c 0 t : Vec Ideal S1024x256 .f32) y) (fun y => wb t y) p q)
    (hwb : ∀ (t : Fin cfg0.N) (q : Fin 512) (κ : Fin 256) (hb : 512 * (t.val / 16 % 4) + q.val < 2048),
      wb t (ix2 q κ) = wrow W ⟨512 * (t.val / 16 % 4) + q.val, hb⟩ (256 * (t.val % 16) + κ.val))
    (junk : S1024x512.Idx → EReal) (t : Fin cfg0.N) (h15 : t.val % 16 = 15)
    (h' : 16 * (t.val / 16) + t.val % 16 < cfg0.N) (p : Fin 1024) (q : Fin 512)
    (hp : 1024 * (t.val / 64) + p.val < 8192) (hq : 512 * (t.val / 16 % 4) + q.val < 2048) :
    Pipeline.accAt (fun n h => sc n h junk) sc (16 * (t.val / 16)) (t.val % 16) h' (ix2 p q)
      = dot (X m c) (Hp m c) W ⟨1024 * (t.val / 64) + p.val, hp⟩ ⟨512 * (t.val / 16 % 4) + q.val, hq⟩ := by
  have hN : cfg0.N = 512 := N_0
  have ht : t.val < 512 := hN ▸ t.isLt
  let M : ℕ → S1024x512.Idx → EReal := fun n i =>
    if hn : n < cfg0.N then
      rowRow (fun y => (iblk m c 0 ⟨n, hn⟩ : Vec Ideal S1024x256 .f32) y) (fun y => wb ⟨n, hn⟩ y) (i 0) (i 1)
    else 0
  have hM : ∀ (n : ℕ) (hn : n < cfg0.N) (acc : S1024x512.Idx → EReal) (i : S1024x512.Idx),
      sc n hn acc i = (if n % 16 = 0 then 0 else acc i) + M n i := by
    intro n hn acc i
    obtain ⟨p', q', rfl⟩ : ∃ (p' : Fin 1024) (q' : Fin 512), i = ix2 p' q' := ⟨i 0, i 1, eq_ix2 i⟩
    have h := hsc ⟨n, hn⟩ acc p' q'
    simp only [M, dif_pos hn]
    exact h
  rw [accAt_steps_eq _ _ _ (t.val % 16) 15 h' h15, fold16 sc junk M hM (t.val / 16) _ (ix2 p q)]
  unfold dot
  rw [← TileSum.sum_range_tiles_eq_sum_fin
    (fun k => comb (X m c) (Hp m c) ⟨1024 * (t.val / 64) + p.val, hp⟩ k * wrow W ⟨512 * (t.val / 16 % 4) + q.val, hq⟩ k) 16 256]
  refine Finset.sum_congr rfl fun s hs => ?_
  have hs16 : s < 16 := Finset.mem_range.mp hs
  have hn : 16 * (t.val / 16) + s < cfg0.N := lt_of_lt_of_eq (by omega : 16 * (t.val / 16) + s < 512) hN.symm
  have e1 : (16 * (t.val / 16) + s) / 64 = t.val / 64 := by omega
  have e2 : (16 * (t.val / 16) + s) / 16 % 4 = t.val / 16 % 4 := by omega
  have e3 : (16 * (t.val / 16) + s) % 16 = s := by omega
  simp only [M, dif_pos hn]
  unfold rowRow
  refine Finset.sum_congr rfl fun κ _ => ?_
  have hp' : 1024 * ((16 * (t.val / 16) + s) / 64) + p.val < 8192 := by rw [e1]; exact hp
  have hq' : 512 * ((16 * (t.val / 16) + s) / 16 % 4) + q.val < 2048 := by rw [e2]; exact hq
  refine (congrArg₂ (fun a b : EReal => a * b) (xblk_at m c ⟨16 * (t.val / 16) + s, hn⟩ p κ hp') (hwb ⟨16 * (t.val / 16) + s, hn⟩ q κ hq')).trans ?_
  refine congrArg₂ (fun a b : EReal => a * b) (comb_congr _ _ _ _ _ _ _ _ ?_ ?_) (wrow_congr _ _ _ _ _ _ _ ?_ ?_)
  · show 1024 * ((16 * (t.val / 16) + s) / 64) + p.val = 1024 * (t.val / 64) + p.val; rw [e1]
  · show 256 * ((16 * (t.val / 16) + s) % 16) + κ.val = 256 * s + κ.val; rw [e3]
  · show 512 * ((16 * (t.val / 16) + s) / 16 % 4) + q.val = 512 * (t.val / 16 % 4) + q.val; rw [e2]
  · show 256 * ((16 * (t.val / 16) + s) % 16) + κ.val = 256 * s + κ.val; rw [e3]

/-! ## The four gates -/

/-- The forget gate's step at an element. -/
theorem acc_f_at (c : Dev nD) (t : Fin cfg0.N) (acc : S1024x512.Idx → EReal) (p : Fin 1024) (q : Fin 512) :
    Value.scAt0_0 m c t.val t.isLt acc (ix2 p q) = (if t.val % 16 = 0 then 0 else acc (ix2 p q))
      + rowRow (fun y => (iblk m c 0 t : Vec Ideal S1024x256 .f32) y) (fun y => (iblk m c 1 t : Vec Ideal S512x256 .f32) y) p q := by
  rw [acc_f_step m c t acc]
  refine (PayloadAt.step0_at (iblk m c 0 t) (iblk m c 1 t) _ p q).trans ?_
  by_cases h0 : t.val % 16 = 0
  · rw [if_pos h0, if_pos h0, (PayloadAt.zero_at p q).1]
  · rw [if_neg h0, if_neg h0]

/-- The input gate's step at an element. -/
theorem acc_i_at (c : Dev nD) (t : Fin cfg0.N) (acc : S1024x512.Idx → EReal) (p : Fin 1024) (q : Fin 512) :
    Value.scAt0_1 m c t.val t.isLt acc (ix2 p q) = (if t.val % 16 = 0 then 0 else acc (ix2 p q))
      + rowRow (fun y => (iblk m c 0 t : Vec Ideal S1024x256 .f32) y) (fun y => (iblk m c 2 t : Vec Ideal S512x256 .f32) y) p q := by
  rw [acc_i_step m c t acc]
  refine (PayloadAt.step1_at (iblk m c 0 t) (iblk m c 2 t) _ p q).trans ?_
  by_cases h0 : t.val % 16 = 0
  · rw [if_pos h0, if_pos h0, (PayloadAt.zero_at p q).2.1]
  · rw [if_neg h0, if_neg h0]

/-- The candidate's step at an element. -/
theorem acc_c_at (c : Dev nD) (t : Fin cfg0.N) (acc : S1024x512.Idx → EReal) (p : Fin 1024) (q : Fin 512) :
    Value.scAt0_2 m c t.val t.isLt acc (ix2 p q) = (if t.val % 16 = 0 then 0 else acc (ix2 p q))
      + rowRow (fun y => (iblk m c 0 t : Vec Ideal S1024x256 .f32) y) (fun y => (iblk m c 3 t : Vec Ideal S512x256 .f32) y) p q := by
  rw [acc_c_step m c t acc]
  refine (PayloadAt.step2_at (iblk m c 0 t) (iblk m c 3 t) _ p q).trans ?_
  by_cases h0 : t.val % 16 = 0
  · rw [if_pos h0, if_pos h0, (PayloadAt.zero_at p q).2.2.1]
  · rw [if_neg h0, if_neg h0]

/-- The output gate's step at an element. -/
theorem acc_o_at (c : Dev nD) (t : Fin cfg0.N) (acc : S1024x512.Idx → EReal) (p : Fin 1024) (q : Fin 512) :
    Value.scAt0_3 m c t.val t.isLt acc (ix2 p q) = (if t.val % 16 = 0 then 0 else acc (ix2 p q))
      + rowRow (fun y => (iblk m c 0 t : Vec Ideal S1024x256 .f32) y) (fun y => (iblk m c 4 t : Vec Ideal S512x256 .f32) y) p q := by
  rw [acc_o_step m c t acc]
  refine (PayloadAt.step3_at (iblk m c 0 t) (iblk m c 4 t) _ p q).trans ?_
  by_cases h0 : t.val % 16 = 0
  · rw [if_pos h0, if_pos h0, (PayloadAt.zero_at p q).2.2.2]
  · rw [if_neg h0, if_neg h0]

/-- After the last step the forget gate's accumulator holds its whole contraction. -/
theorem acc_f_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).2.2.1 (ix2 p q)
      = dot (X m c) (Hp m c) (Wf m c) ⟨1024 * (t.val / 64) + p.val, hp⟩ ⟨512 * (t.val / 16 % 4) + q.val, hq⟩ := by
  rw [Value.soutsAt0_0_eq m c t]
  exact gate_total m c (Value.scAt0_0 m c) (fun t => iblk m c 1 t) (Wf m c) (acc_f_at m c)
    (fun t q κ hb => wblk_f_at m c t q κ hb) _ t h15 _ p q hp hq

/-- After the last step the input gate's accumulator holds its whole contraction. -/
theorem acc_i_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).2.2.2.1 (ix2 p q)
      = dot (X m c) (Hp m c) (Wi m c) ⟨1024 * (t.val / 64) + p.val, hp⟩ ⟨512 * (t.val / 16 % 4) + q.val, hq⟩ := by
  rw [Value.soutsAt0_1_eq m c t]
  exact gate_total m c (Value.scAt0_1 m c) (fun t => iblk m c 2 t) (Wi m c) (acc_i_at m c)
    (fun t q κ hb => wblk_i_at m c t q κ hb) _ t h15 _ p q hp hq

/-- After the last step the candidate's accumulator holds its whole contraction. -/
theorem acc_c_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).2.2.2.2.1 (ix2 p q)
      = dot (X m c) (Hp m c) (Wc m c) ⟨1024 * (t.val / 64) + p.val, hp⟩ ⟨512 * (t.val / 16 % 4) + q.val, hq⟩ := by
  rw [Value.soutsAt0_2_eq m c t]
  exact gate_total m c (Value.scAt0_2 m c) (fun t => iblk m c 3 t) (Wc m c) (acc_c_at m c)
    (fun t q κ hb => wblk_c_at m c t q κ hb) _ t h15 _ p q hp hq

/-- After the last step the output gate's accumulator holds its whole contraction. -/
theorem acc_o_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).2.2.2.2.2 (ix2 p q)
      = dot (X m c) (Hp m c) (Wo m c) ⟨1024 * (t.val / 64) + p.val, hp⟩ ⟨512 * (t.val / 16 % 4) + q.val, hq⟩ := by
  rw [Value.soutsAt0_3_eq m c t]
  exact gate_total m c (Value.scAt0_3 m c) (fun t => iblk m c 4 t) (Wo m c) (acc_o_at m c)
    (fun t q κ hb => wblk_o_at m c t q κ hb) _ t h15 _ p q hp hq

end Cert.KernelIdeal.Fold

end
-- ==== Proof.KernelValue.lean ====
/-
  The idealized kernel computes the specification.

  The two result blocks are written back only at the last step k = 15 of a contraction. There the new cell
  state's block is the gate payload of the accumulators AS UPDATED by that step — which hold the gates' whole
  contractions (the fold) — of the bias blocks and of the old cell state's block: at (p, q) of block (m, h) it is
  the specification's cell state at (1024m + p, 512h + q), and the hidden state's block likewise. Every index
  (b, j) of a result lies in the block of the point 64·(b / 1024) + 16·(j / 512) + 15, which writes back; so
  after the run each result array IS the specification's array.
-/
import proofs.«127460_j81930796139238_1_alg».proof.Proof.Gen.KernelIdeal.Value
import proofs.«127460_j81930796139238_1_alg».proof.Proof.KernelFold

set_option maxRecDepth 16384

noncomputable section

namespace Cert.KernelIdeal.RefValue

open Cert.KernelIdeal Cert.KernelIdeal.Gen Cert.LstmSpec Cert.KernelIdeal.Blocks Cert.KernelIdeal.Fold
open Idealize.ShloMosaic Idealize.ShloMosaic.TcCoe Idealize.SL.Sem Idealize.ShloMosaic.ValueIdx
open Idealize.ShloMosaic.Pipeline (Dat)

/-! ## The last step of a contraction, at any float instance -/

section AnyInstance
variable {F : FTy → Type} [FloatOps F]
variable (m : (ℓ : Loc nD τ sig) → Buf (Elt F) ℓ)

/-- After the last step each accumulator is that step's update of what the step before left. -/
theorem acc_after_last (c : Dev nD) (t : Fin cfg0.N) (h0 : ¬t.val % 16 = 0) (h1 : t.val % 16 = 15) :
    (outsAt0 m c t.val t.isLt).2.2.1 = k0_pay11 (iblk m c 0 t) (iblk m c 1 t) (outsAt0 m c (t.val - 1) (Nat.lt_of_le_of_lt (Nat.sub_le _ _) t.isLt)).2.2.1
    ∧ (outsAt0 m c t.val t.isLt).2.2.2.1 = k0_pay12 (iblk m c 0 t) (iblk m c 2 t) (outsAt0 m c (t.val - 1) (Nat.lt_of_le_of_lt (Nat.sub_le _ _) t.isLt)).2.2.2.1
    ∧ (outsAt0 m c t.val t.isLt).2.2.2.2.1 = k0_pay1 (k0_pay13 (iblk m c 0 t) (iblk m c 3 t) (outsAt0 m c (t.val - 1) (Nat.lt_of_le_of_lt (Nat.sub_le _ _) t.isLt)).2.2.2.2.1)
    ∧ (outsAt0 m c t.val t.isLt).2.2.2.2.2 = k0_pay2 (k0_pay9 (iblk m c 0 t)) (k0_pay10 (iblk m c 4 t)) (outsAt0 m c (t.val - 1) (Nat.lt_of_le_of_lt (Nat.sub_le _ _) t.isLt)).2.2.2.2.2 := by
  rw [outsAt0_C m c t h0 h1]
  dsimp only
  exact ⟨Pieces.last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _,
    Pieces.last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _,
    Pieces.last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _,
    Pieces.last_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _⟩

/-- After the last step the two result blocks are the gate payloads of what the step before left, updated. -/
theorem results_after_last (c : Dev nD) (t : Fin cfg0.N) (h0 : ¬t.val % 16 = 0) (h1 : t.val % 16 = 15) :
    (outsAt0 m c t.val t.isLt).1
      = k0_pay4 (k0_pay11 (iblk m c 0 t) (iblk m c 1 t) (outsAt0 m c (t.val - 1) (Nat.lt_of_le_of_lt (Nat.sub_le _ _) t.isLt)).2.2.1) (iblk m c 5 t)
          (k0_pay12 (iblk m c 0 t) (iblk m c 2 t) (outsAt0 m c (t.val - 1) (Nat.lt_of_le_of_lt (Nat.sub_le _ _) t.isLt)).2.2.2.1) (iblk m c 6 t)
          (k0_pay1 (k0_pay13 (iblk m c 0 t) (iblk m c 3 t) (outsAt0 m c (t.val - 1) (Nat.lt_of_le_of_lt (Nat.sub_le _ _) t.isLt)).2.2.2.2.1)) (iblk m c 7 t)
          (k0_pay2 (k0_pay9 (iblk m c 0 t)) (k0_pay10 (iblk m c 4 t)) (outsAt0 m c (t.val - 1) (Nat.lt_of_le_of_lt (Nat.sub_le _ _) t.isLt)).2.2.2.2.2) (iblk m c 8 t) (iblk m c 9 t)
    ∧ (outsAt0 m c t.val t.isLt).2.1
      = k0_pay3 (k0_pay11 (iblk m c 0 t) (iblk m c 1 t) (outsAt0 m c (t.val - 1) (Nat.lt_of_le_of_lt (Nat.sub_le _ _) t.isLt)).2.2.1) (iblk m c 5 t)
          (k0_pay12 (iblk m c 0 t) (iblk m c 2 t) (outsAt0 m c (t.val - 1) (Nat.lt_of_le_of_lt (Nat.sub_le _ _) t.isLt)).2.2.2.1) (iblk m c 6 t)
          (k0_pay1 (k0_pay13 (iblk m c 0 t) (iblk m c 3 t) (outsAt0 m c (t.val - 1) (Nat.lt_of_le_of_lt (Nat.sub_le _ _) t.isLt)).2.2.2.2.1)) (iblk m c 7 t) (iblk m c 9 t) := by
  rw [outsAt0_C m c t h0 h1]
  dsimp only
  exact ⟨Pieces.last_hidden c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _,
    Pieces.last_cell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) _ _ _ _⟩

/-- So the result blocks are the gate payloads of the accumulators as that step leaves them. -/
theorem results_of_accs (c : Dev nD) (t : Fin cfg0.N) (h0 : ¬t.val % 16 = 0) (h1 : t.val % 16 = 15) :
    (outsAt0 m c t.val t.isLt).1
      = k0_pay4 (outsAt0 m c t.val t.isLt).2.2.1 (iblk m c 5 t) (outsAt0 m c t.val t.isLt).2.2.2.1 (iblk m c 6 t)
          (outsAt0 m c t.val t.isLt).2.2.2.2.1 (iblk m c 7 t) (outsAt0 m c t.val t.isLt).2.2.2.2.2 (iblk m c 8 t) (iblk m c 9 t)
    ∧ (outsAt0 m c t.val t.isLt).2.1
      = k0_pay3 (outsAt0 m c t.val t.isLt).2.2.1 (iblk m c 5 t) (outsAt0 m c t.val t.isLt).2.2.2.1 (iblk m c 6 t)
          (outsAt0 m c t.val t.isLt).2.2.2.2.1 (iblk m c 7 t) (iblk m c 9 t) := by
  obtain ⟨a0, a1, a2, a3⟩ := acc_after_last m c t h0 h1
  obtain ⟨r0, r1⟩ := results_after_last m c t h0 h1
  rw [← a0, ← a1, ← a2, ← a3] at r0
  rw [← a0, ← a1, ← a2] at r1
  exact ⟨r0, r1⟩

end AnyInstance

/-! ## On the extended reals -/

variable (m : (ℓ : Loc nD τ sig) → Buf (Elt Ideal) ℓ) (ρ : Dev nD → PrngReg)

/-- The new hidden state, as a function of the arguments. -/
abbrev hiddenOf (c : Dev nD) : Buf (Elt Ideal) ((c : Thread nD τ).loc main_v5_0) :=
  hidden (X m c) (Hp m c) (Cp m c) (Wf m c) (Wi m c) (Wc m c) (Wo m c) (Bf m c) (Bi m c) (Bc m c) (Bo m c)

/-- The new cell state, as a function of the arguments. -/
abbrev cellOf (c : Dev nD) : Buf (Elt Ideal) ((c : Thread nD τ).loc main_v5_1) :=
  cell (X m c) (Hp m c) (Cp m c) (Wf m c) (Wi m c) (Wc m c) (Bf m c) (Bi m c) (Bc m c)

/-- The cell-state block after the last step, at (p, q): the specification at (1024m + p, 512h + q). -/
theorem cell_at_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).2.1 (ix2 p q)
      = cellOf m c (ix2 (⟨1024 * (t.val / 64) + p.val, hp⟩ : Fin 8192) (⟨512 * (t.val / 16 % 4) + q.val, hq⟩ : Fin 2048)) := by
  have h0 : ¬t.val % 16 = 0 := by omega
  refine (congrFun (results_of_accs m c t h0 h15).2 (ix2 p q)).trans ?_
  refine (PayloadAt.cell_at (outsAt0 m c t.val t.isLt).2.2.1 (iblk m c 5 t) (outsAt0 m c t.val t.isLt).2.2.2.1 (iblk m c 6 t)
    (outsAt0 m c t.val t.isLt).2.2.2.2.1 (iblk m c 7 t) (iblk m c 9 t) p q).trans ?_
  rw [acc_f_last m c t h15 p q hp hq, acc_i_last m c t h15 p q hp hq, acc_c_last m c t h15 p q hp hq,
    bblk_f_at m c t q hq, bblk_i_at m c t q hq, bblk_c_at m c t q hq, cblk_at m c t p q hp hq]
  rfl

/-- The hidden-state block after the last step, at (p, q). -/
theorem hidden_at_last (c : Dev nD) (t : Fin cfg0.N) (h15 : t.val % 16 = 15) (p : Fin 1024) (q : Fin 512)
    (hp : 1024 * (t.val / 64) + p.val < 8192) (hq : 512 * (t.val / 16 % 4) + q.val < 2048) :
    (outsAt0 m c t.val t.isLt).1 (ix2 p q)
      = hiddenOf m c (ix2 (⟨1024 * (t.val / 64) + p.val, hp⟩ : Fin 8192) (⟨512 * (t.val / 16 % 4) + q.val, hq⟩ : Fin 2048)) := by
  have h0 : ¬t.val % 16 = 0 := by omega
  refine (congrFun (results_of_accs m c t h0 h15).1 (ix2 p q)).trans ?_
  refine (PayloadAt.hidden_at (outsAt0 m c t.val t.isLt).2.2.1 (iblk m c 5 t) (outsAt0 m c t.val t.isLt).2.2.2.1 (iblk m c 6 t)
    (outsAt0 m c t.val t.isLt).2.2.2.2.1 (iblk m c 7 t) (outsAt0 m c t.val t.isLt).2.2.2.2.2 (iblk m c 8 t) (iblk m c 9 t) p q).trans ?_
  rw [← congrFun (results_of_accs m c t h0 h15).2 (ix2 p q), cell_at_last m c t h15 p q hp hq,
    acc_o_last m c t h15 p q hp hq, bblk_o_at m c t q hq]
  rfl

/-! ## From blocks to the arrays -/

/-- An index of the hidden-state array is in point `t`'s block iff each coordinate is in the block's range. -/
theorem mem_block_hidden (t : Fin cfg0.N) (i : S8192x2048.Idx) :
    i ∈ ((cfg0.win 10).blk t).view.set ↔ ∀ a : Fin 2, win0_10.index t a * S1024x512.size a ≤ (i a).val
      ∧ (i a).val < win0_10.index t a * S1024x512.size a + S1024x512.size a := by
  show i ∈ ((View.whole main_v5_0).slice (win0_10.rect t)).set ↔ _
  rw [View.set_slice_whole, Rect.mem_set_unit]
  exact Iff.rfl

/-- The same for the cell-state array. -/
theorem mem_block_cell (t : Fin cfg0.N) (i : S8192x2048.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v5_1).slice (win0_11.rect t)).set ↔ _
  rw [View.set_slice_whole, Rect.mem_set_unit]
  exact Iff.rfl

/-- The point whose block holds index (b, j): batch block b / 1024, hidden block j / 512, last step. -/
theorem cover_point_lt (i : S8192x2048.Idx) : 64 * ((i 0).val / 1024) + 16 * ((i 1).val / 512) + 15 < cfg0.N := by
  have h0 : (i 0).val < 8192 := (i 0).isLt
  have h1 : (i 1).val < 2048 := (i 1).isLt
  exact lt_of_lt_of_eq (by omega : 64 * ((i 0).val / 1024) + 16 * ((i 1).val / 512) + 15 < 512) N_0.symm

/-- Every index of the hidden-state array is in the block of a point that writes back. -/
theorem cover_hidden (i : S8192x2048.Idx) :
    ∃ t : Fin cfg0.N, (cfg0.win 10).flush t = true ∧ i ∈ ((cfg0.win 10).blk t).view.set := by
  have h0 : (i 0).val < 8192 := (i 0).isLt
  have h1 : (i 1).val < 2048 := (i 1).isLt
  obtain ⟨-, -, -, -, -, -, -, -, -, -, -, -, -, -, -, -, -, -, -, -, e0, e1, -⟩ := idx_facts ⟨64 * ((i 0).val / 1024) + 16 * ((i 1).val / 512) + 15, cover_point_lt i⟩
  have e0' : win0_10.index ⟨64 * ((i 0).val / 1024) + 16 * ((i 1).val / 512) + 15, cover_point_lt i⟩ (0 : Fin 2)
      = (64 * ((i 0).val / 1024) + 16 * ((i 1).val / 512) + 15) / 64 := e0
  have e1' : win0_10.index ⟨64 * ((i 0).val / 1024) + 16 * ((i 1).val / 512) + 15, cover_point_lt i⟩ (1 : Fin 2)
      = (64 * ((i 0).val / 1024) + 16 * ((i 1).val / 512) + 15) / 16 % 4 := e1
  refine ⟨⟨64 * ((i 0).val / 1024) + 16 * ((i 1).val / 512) + 15, cover_point_lt i⟩, (flush0_10 _).mpr ?_, ?_⟩
  · show (64 * ((i 0).val / 1024) + 16 * ((i 1).val / 512) + 15) % 16 = 15
    omega
  · rw [mem_block_hidden]
    intro a
    match a with
    | ⟨0, _⟩ =>
      show win0_10.index _ (0 : Fin 2) * 1024 ≤ (i 0).val ∧ (i 0).val < win0_10.index _ (0 : Fin 2) * 1024 + 1024
      rw [e0']; omega
    | ⟨1, _⟩ =>
      show win0_10.index _ (1 : Fin 2) * 512 ≤ (i 1).val ∧ (i 1).val < win0_10.index _ (1 : Fin 2) * 512 + 512
      rw [e1']; omega

/-- Every index of the cell-state array likewise. -/
theorem cover_cell (i : S8192x2048.Idx) :
    ∃ t : Fin cfg0.N, (cfg0.win 11).flush t = true ∧ i ∈ ((cfg0.win 11).blk t).view.set := by
  have h0 : (i 0).val < 8192 := (i 0).isLt
  have h1 : (i 1).val < 2048 := (i 1).isLt
  obtain ⟨-, -, -, -, -, -, -, -, -, -, -, -, -, -, -, -, -, -, -, -, -, -, e0, e1⟩ := idx_facts ⟨64 * ((i 0).val / 1024) + 16 * ((i 1).val / 512) + 15, cover_point_lt i⟩
  have e0' : win0_11.index ⟨64 * ((i 0).val / 1024) + 16 * ((i 1).val / 512) + 15, cover_point_lt i⟩ (0 : Fin 2)
      = (64 * ((i 0).val / 1024) + 16 * ((i 1).val / 512) + 15) / 64 := e0
  have e1' : win0_11.index ⟨64 * ((i 0).val / 1024) + 16 * ((i 1).val / 512) + 15, cover_point_lt i⟩ (1 : Fin 2)
      = (64 * ((i 0).val / 1024) + 16 * ((i 1).val / 512) + 15) / 16 % 4 := e1
  refine ⟨⟨64 * ((i 0).val / 1024) + 16 * ((i 1).val / 512) + 15, cover_point_lt i⟩, (flush0_11 _).mpr ?_, ?_⟩
  · show (64 * ((i 0).val / 1024) + 16 * ((i 1).val / 512) + 15) % 16 = 15
    omega
  · rw [mem_block_cell]
    intro a
    match a with
    | ⟨0, _⟩ =>
      show win0_11.index _ (0 : Fin 2) * 1024 ≤ (i 0).val ∧ (i 0).val < win0_11.index _ (0 : Fin 2) * 1024 + 1024
      rw [e0']; omega
    | ⟨1, _⟩ =>
      show win0_11.index _ (1 : Fin 2) * 512 ≤ (i 1).val ∧ (i 1).val < win0_11.index _ (1 : Fin 2) * 512 + 512
      rw [e1']; omega

/-- What a point that writes back writes to the hidden-state array is its block of the specification. -/
theorem flushed_hidden (c : Dev nD) (t : Fin cfg0.N) (hf : (cfg0.win 10).flush t = true) :
    (dats m 0 c).flushed 10 t = ((cfg0.win 10).blk t).view.read (Elt Ideal) (hiddenOf m c) := by
  have h15 : t.val % 16 = 15 := (flush0_10 t).mp hf
  have ht : t.val < 512 := lt_of_lt_of_eq t.isLt N_0
  obtain ⟨-, -, -, -, -, -, -, -, -, -, -, -, -, -, -, -, -, -, -, -, e0, e1, -⟩ := idx_facts t
  rw [Value.flushed10 m c t]
  funext y
  rw [View.read_apply]
  have hy0 : (y 0).val < 1024 := (y 0).isLt
  have hy1 : (y 1).val < 512 := (y 1).isLt
  have hp : 1024 * (t.val / 64) + (y 0).val < 8192 := by omega
  have hq : 512 * (t.val / 16 % 4) + (y 1).val < 2048 := by omega
  have ee : ((cfg0.win 10).blk t).view.emb y
      = (ix2 (⟨1024 * (t.val / 64) + (y 0).val, hp⟩ : Fin 8192) (⟨512 * (t.val / 16 % 4) + (y 1).val, hq⟩ : Fin 2048) : S8192x2048.Idx) := by
    funext a; apply Fin.ext
    match a with
    | ⟨0, _⟩ => show win0_10.index t (0 : Fin 2) * 1024 + 1 * (y 0).val = 1024 * (t.val / 64) + (y 0).val; rw [e0]; omega
    | ⟨1, _⟩ => show win0_10.index t (1 : Fin 2) * 512 + 1 * (y 1).val = 512 * (t.val / 16 % 4) + (y 1).val; rw [e1]; omega
  rw [ee]
  refine Eq.trans ?_ (hidden_at_last m c t h15 ⟨(y 0).val, hy0⟩ ⟨(y 1).val, hy1⟩ hp hq)
  show (outsAt0 m c t.val t.isLt).1 y = _
  refine congrArg (outsAt0 m c t.val t.isLt).1 ?_
  funext a
  match a with
  | ⟨0, _⟩ => rfl
  | ⟨1, _⟩ => rfl

/-- What a point that writes back writes to the cell-state array is its block of the specification. -/
theorem flushed_cell (c : Dev nD) (t : Fin cfg0.N) (hf : (cfg0.win 11).flush t = true) :
    (dats m 0 c).flushed 11 t = ((cfg0.win 11).blk t).view.read (Elt Ideal) (cellOf m c) := by
  have h15 : t.val % 16 = 15 := (flush0_11 t).mp hf
  have ht : t.val < 512 := lt_of_lt_of_eq t.isLt N_0
  obtain ⟨-, -, -, -, -, -, -, -, -, -, -, -, -, -, -, -, -, -, -, -, -, -, e0, e1⟩ := idx_facts t
  rw [Value.flushed11 m c t]
  funext y
  rw [View.read_apply]
  have hy0 : (y 0).val < 1024 := (y 0).isLt
  have hy1 : (y 1).val < 512 := (y 1).isLt
  have hp : 1024 * (t.val / 64) + (y 0).val < 8192 := by omega
  have hq : 512 * (t.val / 16 % 4) + (y 1).val < 2048 := by omega
  have ee : ((cfg0.win 11).blk t).view.emb y
      = (ix2 (⟨1024 * (t.val / 64) + (y 0).val, hp⟩ : Fin 8192) (⟨512 * (t.val / 16 % 4) + (y 1).val, hq⟩ : Fin 2048) : S8192x2048.Idx) := by
    funext a; apply Fin.ext
    match a with
    | ⟨0, _⟩ => show win0_11.index t (0 : Fin 2) * 1024 + 1 * (y 0).val = 1024 * (t.val / 64) + (y 0).val; rw [e0]; omega
    | ⟨1, _⟩ => show win0_11.index t (1 : Fin 2) * 512 + 1 * (y 1).val = 512 * (t.val / 16 % 4) + (y 1).val; rw [e1]; omega
  rw [ee]
  refine Eq.trans ?_ (cell_at_last m c t h15 ⟨(y 0).val, hy0⟩ ⟨(y 1).val, hy1⟩ hp hq)
  show (outsAt0 m c t.val t.isLt).2.1 y = _
  refine congrArg (outsAt0 m c t.val t.isLt).2.1 ?_
  funext a
  match a with
  | ⟨0, _⟩ => rfl
  | ⟨1, _⟩ => rfl

/-- The hidden-state array after the run is the specification's. -/
theorem final_hidden (c : Dev nD) : (dats m 0 c).arrAt 10 cfg0.N = hiddenOf m c :=
  (dats m 0 c).arrAt_eq_of_cover 10 (hiddenOf m c) (fun t hf => flushed_hidden m c t hf) cover_hidden

/-- The cell-state array after the run is the specification's. -/
theorem final_cell (c : Dev nD) : (dats m 0 c).arrAt 11 cfg0.N = cellOf m c :=
  (dats m 0 c).arrAt_eq_of_cover 11 (cellOf m c) (fun t hf => flushed_cell m c t hf) cover_cell

/-! ## The run, read -/

/-- Every weakly fair execution of the idealized kernel ends with the two results at the specification's
    arrays of the arguments, and the arguments unchanged. -/
theorem run : θ_run defs (onTc (τ := τ) (main (F := Ideal))) ⟨m, fun _ => 0, ρ⟩ fun r => ∀ c : Dev nD,
      r.2.mem ((c : Thread nD τ).loc main_v5_0) = hiddenOf m c
      ∧ r.2.mem ((c : Thread nD τ).loc main_v5_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.KernelIdeal.RefValue

end
-- ==== Proof.RefValue.lean ====
/-
  The reference computes the specification.

  The reference multiplies `(x | h_prev)` [8192, 4096] by the transpose of the four weights stacked [8192, 4096]
  in ONE product [8192, 8192], adds the four biases stacked, and cuts the result into the four gates' column
  ranges [2048g, 2048g + 2048). Column 2048g + j of the product at row b is the concatenated row b against row
  2048g + j of the stack, which is row j of gate g's weight; the stacked bias there is gate g's bias at j. So each
  slice at (b, j) is that gate's pre-activation. The sigmoid, which the reference spells 1 / (1 + e^(-s)), is the
  logistic function; the hyperbolic tangent is one function on both sides.
-/
import proofs.«127460_j81930796139238_1_alg».proof.Proof.Gen.ReferenceIdeal.Read
import proofs.«127460_j81930796139238_1_alg».proof.Proof.ConcatRows
import Idealize.ShloMosaic.Lib.IdealHost

noncomputable section

namespace Cert.ReferenceIdeal.RefValue

open Cert.ReferenceIdeal Cert.ReferenceIdeal.Gen Cert.ReferenceIdeal.Read Cert.LstmSpec
open Idealize.ShloMosaic Idealize.ShloMosaic.ValueIdx Idealize.ShloMosaic.TcCoe Idealize.SL.Sem

variable (x0 x1 x2 : (⟨S8192x2048, .f32⟩ : BufTy).Contents (Elt Ideal))
  (x3 : (⟨S2048x4096, .f32⟩ : BufTy).Contents (Elt Ideal)) (x4 : (⟨S2048, .f32⟩ : BufTy).Contents (Elt Ideal))
  (x5 : (⟨S2048x4096, .f32⟩ : BufTy).Contents (Elt Ideal)) (x6 : (⟨S2048, .f32⟩ : BufTy).Contents (Elt Ideal))
  (x7 : (⟨S2048x4096, .f32⟩ : BufTy).Contents (Elt Ideal)) (x8 : (⟨S2048, .f32⟩ : BufTy).Contents (Elt Ideal))
  (x9 : (⟨S2048x4096, .f32⟩ : BufTy).Contents (Elt Ideal)) (x10 : (⟨S2048, .f32⟩ : BufTy).Contents (Elt Ideal))

/-- The four weights, by gate: forget, input, candidate, output. -/
def gateW : Fin 4 → Wt := ![x3, x5, x7, x9]
/-- The four biases, by gate. -/
def gateB : Fin 4 → Bias := ![x4, x6, x8, x10]

/-- The fused product plus the stacked bias, at row `b` and column `2048·g + j`: gate `g`'s pre-activation at (b, j). -/
theorem fused_at (g : Fin 4) (b : Fin 8192) (j : Fin 2048) (r : Fin 8192) (hr : r.val = 2048 * g.val + j.val) :
    val_main_v7 (F := Ideal) x0 x1 x3 x4 x5 x6 x7 x8 x9 x10 (ix2 b r)
      = pre x0 x1 (gateW x3 x5 x7 x9 g) (gateB x4 x6 x8 x10 g) b j := by
  rw [val_main_v7_apply, val_main_v4_apply, val_main_v6_apply, val_main_v5_apply]
  unfold pre dot
  refine congrArg₂ (· + ·) (Finset.sum_congr rfl fun k _ => congrArg₂ (· * ·) ?_ ?_) ?_
  · -- the concatenated row
    have hl : lidx_main_v4 (ix2 b r) k = (ix2 b k : S8192x4096.Idx) := funext fun a => Fin.ext (by
      match a with
      | ⟨0, _⟩ => rfl
      | ⟨1, _⟩ => rfl)
    rw [hl]
    exact concat_xh_apply x0 x1 concatenates_S8192x2048_S8192x2048_S8192x4096_d1 b k
  · -- row 2048·g + j of the stack, through the transpose
    rw [val_main_v3_apply]
    have hi : idx_main_v3 (ridx_main_v4 (ix2 b r) k) = (ix2 r k : S8192x4096.Idx) := funext fun a => Fin.ext (by
      match a with
      | ⟨0, _⟩ => rfl
      | ⟨1, _⟩ => rfl)
    rw [hi, wrow_lt _ _ _ k.isLt]
    exact stack_weights_apply (gateW x3 x5 x7 x9) concatenates_S2048x4096_S2048x4096_S2048x4096_S2048x4096_S8192x4096_d0 g j k r hr
  · -- the stacked bias, broadcast over the rows
    have hi : idx_main_v5 (idx_main_v6 (ix2 b r)) = (ix1 r : S8192.Idx) := funext fun a => Fin.ext (by
      match a with
      | ⟨0, _⟩ => rfl)
    rw [hi]
    exact stack_biases_apply (gateB x4 x6 x8 x10) concatenates_S2048_S2048_S2048_S2048_S8192_d0 g j r hr

/-- The forget gate's slice. -/
theorem slice_f_at (b : Fin 8192) (j : Fin 2048) :
    val_main_v8 (F := Ideal) x0 x1 x3 x4 x5 x6 x7 x8 x9 x10 (ix2 b j) = pre x0 x1 x3 x4 b j := by
  rw [val_main_v8_apply]
  have hi : idx_main_v8 (ix2 b j) = (ix2 b (⟨j.val, by have := j.isLt; omega⟩ : Fin 8192) : S8192x8192.Idx) :=
    funext fun a => Fin.ext (by
      match a with
      | ⟨0, _⟩ => rfl
      | ⟨1, _⟩ => rfl)
  rw [hi]
  exact fused_at x0 x1 x3 x4 x5 x6 x7 x8 x9 x10 0 b j _ (by show j.val = 2048 * 0 + j.val; omega)

/-- The input gate's slice. -/
theorem slice_i_at (b : Fin 8192) (j : Fin 2048) :
    val_main_v9 (F := Ideal) x0 x1 x3 x4 x5 x6 x7 x8 x9 x10 (ix2 b j) = pre x0 x1 x5 x6 b j := by
  rw [val_main_v9_apply]
  have hi : idx_main_v9 (ix2 b j) = (ix2 b (⟨2048 + j.val, by have := j.isLt; omega⟩ : Fin 8192) : S8192x8192.Idx) :=
    funext fun a => Fin.ext (by
      match a with
      | ⟨0, _⟩ => rfl
      | ⟨1, _⟩ => rfl)
  rw [hi]
  exact fused_at x0 x1 x3 x4 x5 x6 x7 x8 x9 x10 1 b j _ (by show 2048 + j.val = 2048 * 1 + j.val; omega)

/-- The candidate's slice. -/
theorem slice_c_at (b : Fin 8192) (j : Fin 2048) :
    val_main_v10 (F := Ideal) x0 x1 x3 x4 x5 x6 x7 x8 x9 x10 (ix2 b j) = pre x0 x1 x7 x8 b j := by
  rw [val_main_v10_apply]
  have hi : idx_main_v10 (ix2 b j) = (ix2 b (⟨4096 + j.val, by have := j.isLt; omega⟩ : Fin 8192) : S8192x8192.Idx) :=
    funext fun a => Fin.ext (by
      match a with
      | ⟨0, _⟩ => rfl
      | ⟨1, _⟩ => rfl)
  rw [hi]
  exact fused_at x0 x1 x3 x4 x5 x6 x7 x8 x9 x10 2 b j _ (by show 4096 + j.val = 2048 * 2 + j.val; omega)

/-- The output gate's slice. -/
theorem slice_o_at (b : Fin 8192) (j : Fin 2048) :
    val_main_v11 (F := Ideal) x0 x1 x3 x4 x5 x6 x7 x8 x9 x10 (ix2 b j) = pre x0 x1 x9 x10 b j := by
  rw [val_main_v11_apply]
  have hi : idx_main_v11 (ix2 b j) = (ix2 b (⟨6144 + j.val, by have := j.isLt; omega⟩ : Fin 8192) : S8192x8192.Idx) :=
    funext fun a => Fin.ext (by
      match a with
      | ⟨0, _⟩ => rfl
      | ⟨1, _⟩ => rfl)
  rw [hi]
  exact fused_at x0 x1 x3 x4 x5 x6 x7 x8 x9 x10 3 b j _ (by show 6144 + j.val = 2048 * 3 + j.val; omega)

/-- The constant one, broadcast: the real one at every index. -/
theorem one_at (i : S8192x2048.Idx) :
    val_main_v14 (F := Ideal) i = 1 ∧ val_main_v16 (F := Ideal) i = 1 ∧ val_main_v20 (F := Ideal) i = 1
      ∧ val_main_v22 (F := Ideal) i = 1 ∧ val_main_v30 (F := Ideal) i = 1 ∧ val_main_v32 (F := Ideal) i = 1 := by
  rw [val_main_v14_apply, val_main_v16_apply, val_main_v20_apply, val_main_v22_apply, val_main_v30_apply, val_main_v32_apply,
    val_main_cst_apply, val_main_cst_0_apply, val_main_cst_1_apply, val_main_cst_2_apply, val_main_cst_3_apply, val_main_cst_4_apply]
  exact ⟨Ideal.ofBits_one_f32, Ideal.ofBits_one_f32, Ideal.ofBits_one_f32, Ideal.ofBits_one_f32, Ideal.ofBits_one_f32,
    Ideal.ofBits_one_f32⟩

/-- The forget gate after its sigmoid. -/
theorem sig_f_at (b : Fin 8192) (j : Fin 2048) :
    val_main_v17 (F := Ideal) x0 x1 x3 x4 x5 x6 x7 x8 x9 x10 (ix2 b j) = Ideal.logistic (pre x0 x1 x3 x4 b j) := by
  rw [val_main_v17_apply, val_main_v15_apply, val_main_v13_apply, val_main_v12_apply, slice_f_at,
    (one_at (ix2 b j)).1, (one_at (ix2 b j)).2.1]
  rfl

/-- The input gate after its sigmoid. -/
theorem sig_i_at (b : Fin 8192) (j : Fin 2048) :
    val_main_v23 (F := Ideal) x0 x1 x3 x4 x5 x6 x7 x8 x9 x10 (ix2 b j) = Ideal.logistic (pre x0 x1 x5 x6 b j) := by
  rw [val_main_v23_apply, val_main_v21_apply, val_main_v19_apply, val_main_v18_apply, slice_i_at,
    (one_at (ix2 b j)).2.2.1, (one_at (ix2 b j)).2.2.2.1]
  rfl

/-- The output gate after its sigmoid. -/
theorem sig_o_at (b : Fin 8192) (j : Fin 2048) :
    val_main_v33 (F := Ideal) x0 x1 x3 x4 x5 x6 x7 x8 x9 x10 (ix2 b j) = Ideal.logistic (pre x0 x1 x9 x10 b j) := by
  rw [val_main_v33_apply, val_main_v31_apply, val_main_v29_apply, val_main_v28_apply, slice_o_at,
    (one_at (ix2 b j)).2.2.2.2.1, (one_at (ix2 b j)).2.2.2.2.2]
  rfl

/-- The reference's second result is the specification's new cell state. -/
theorem cell_eq :
    val_main_v27 (F := Ideal) x0 x1 x2 x3 x4 x5 x6 x7 x8 x9 x10 = cell x0 x1 x2 x3 x5 x7 x4 x6 x8 := by
  funext i
  obtain ⟨b, j, rfl⟩ : ∃ (b : Fin 8192) (j : Fin 2048), i = ix2 b j := ⟨i 0, i 1, eq_ix2 i⟩
  rw [val_main_v27_apply, val_main_v25_apply, val_main_v26_apply, val_main_v24_apply, sig_f_at, sig_i_at, slice_c_at]
  rfl

/-- The reference's first result is the specification's new hidden state. -/
theorem hidden_eq :
    val_main_v35 (F := Ideal) x0 x1 x2 x3 x4 x5 x6 x7 x8 x9 x10 = hidden x0 x1 x2 x3 x5 x7 x9 x4 x6 x8 x10 := by
  funext i
  obtain ⟨b, j, rfl⟩ : ∃ (b : Fin 8192) (j : Fin 2048), i = ix2 b j := ⟨i 0, i 1, eq_ix2 i⟩
  rw [val_main_v35_apply, val_main_v34_apply, sig_o_at, cell_eq]
  rfl

/-! ## The run, read -/

/-- Every weakly fair execution of the idealized reference ends with its two results at the specification's
    arrays of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg4)) (m ((c.tc : Thread nD τ).loc main_arg6)) (m ((c.tc : Thread nD τ).loc main_arg8)) (m ((c.tc : Thread nD τ).loc main_arg10))
      ∧ r.2.mem ((c.tc : Thread nD τ).loc main_v27)
        = cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg4)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans ((val_main_v35_eq m c).trans (hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
      (h c).2.1.trans ((val_main_v27_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).trans
        (cell_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
      (h c).2.2⟩)
    (Cert.ReferenceIdeal.Value.run (F := Ideal) m ρ)

end Cert.ReferenceIdeal.RefValue

end
-- ==== Proof.lean ====
/-
  An LSTM memory cell as one fused kernel, against the plain reference: equal over the extended reals.

  Both programs form the concatenated input `(x | h_prev)` [8192, 4096] and, per gate g ∈ {forget, input,
  candidate, output}, the pre-activation `(x | h_prev) · W_gᵀ + b_g` [8192, 2048]; then
      c' = σ(f) · c + σ(i) · tanh(g),      h' = σ(o) · tanh(c'),
  and return (h', c'). They differ in how the products are arranged:
    the reference stacks the four weights and multiplies ONCE, [8192, 4096] · [4096, 8192], adds the stacked bias
    and cuts the four gates' column ranges out of the result; it spells σ s as 1 / (1 + e^(-s));
    the kernel walks an 8 × 4 × 16 grid of (1024 batch rows) × (512 hidden units) × (256 contraction columns),
    keeps one [1024, 512] accumulator per gate, zeroes them at the first contraction step, adds one
    [1024, 256] · [512, 256]ᵀ product per step (on operands cast to a narrower float format, which on the
    extended reals is the identity), and at the sixteenth step adds the biases, applies the gates with σ as
    one logistic operation, and writes the two result blocks back.
  On the extended reals the two agree element by element, and no finiteness is needed: a sum over 4096 columns
  is the sum of its sixteen tiles of 256 by associativity of + alone; the logistic function IS 1 / (1 + e^(-s))
  there, by definition, the infinities included; tanh is one function on both sides; everything else is the same
  operations in the same order. The shared meaning is the specification (LstmSpec): the kernel's side is
  KernelPieces → PayloadAt, KernelBlocks → KernelFold → KernelValue over the generated frame and value leg; the
  reference's side is RefValue over the generated run and its read-at-an-index lemmas. The three frames are the
  generated ones (the reference's frame is its run with the results dropped); the kernel's idealization rewrote
  nothing, so what it must preserve is trivially true.
-/
import proofs.«127460_j81930796139238_1_alg».proof.Defs
import proofs.«127460_j81930796139238_1_alg».proof.Proof.Gen.Kernel
import proofs.«127460_j81930796139238_1_alg».proof.Proof.Gen.Kernel.Skeleton
import proofs.«127460_j81930796139238_1_alg».proof.Proof.Gen.Kernel.Launch
import proofs.«127460_j81930796139238_1_alg».proof.Proof.Gen.Kernel.Points
import proofs.«127460_j81930796139238_1_alg».proof.Proof.Gen.Kernel.Frame
import proofs.«127460_j81930796139238_1_alg».proof.Proof.Gen.KernelIdeal
import proofs.«127460_j81930796139238_1_alg».proof.Proof.Gen.KernelIdeal.Skeleton
import proofs.«127460_j81930796139238_1_alg».proof.Proof.Gen.KernelIdeal.Launch
import proofs.«127460_j81930796139238_1_alg».proof.Proof.Gen.KernelIdeal.Points
import proofs.«127460_j81930796139238_1_alg».proof.Proof.Gen.KernelIdeal.Frame
import proofs.«127460_j81930796139238_1_alg».proof.Proof.Gen.ReferenceIdeal
import proofs.«127460_j81930796139238_1_alg».proof.Proof.Gen.Pre_finite_inputs
import proofs.«127460_j81930796139238_1_alg».proof.Proof.KernelValue
import proofs.«127460_j81930796139238_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- From memories that agree on the eleven arguments both idealized programs run, and both end with the
    specification's new hidden state and new cell state of those arguments. -/
theorem algebraic : Cert.algebraic_KernelIdeal_ReferenceIdeal := by
  intro m ρ m' ρ' _ hagree
  refine ⟨fun c => Cert.KernelIdeal.RefValue.hiddenOf m c, fun c => Cert.KernelIdeal.RefValue.cellOf m c,
    Cert.KernelIdeal.RefValue.run m ρ, ?_⟩
  refine (θ_run Cert.ReferenceIdeal.defs _ _).mono (fun _ h c => ?_) (Cert.ReferenceIdeal.RefValue.run m' ρ')
  obtain ⟨a0, a1, a2, a3, a4, a5, a6, a7, a8, a9, a10⟩ := hagree c
  refine ⟨(h c).1.trans ?_, (h c).2.1.trans ?_, (h c).2.2⟩
  · rw [a0, a1, a2, a3, a4, a5, a6, a7, a8, a9, a10]
  · rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
